-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x1 : Shape := ⟨2, ![524288, 1]⟩
abbrev S1x524288x2 : Shape := ⟨3, ![1, 524288, 2]⟩
abbrev S8x1 : Shape := ⟨2, ![8, 1]⟩
abbrev S8x2 : Shape := ⟨2, ![8, 2]⟩
abbrev S8 : Shape := ⟨1, ![8]⟩
abbrev S128x2 : Shape := ⟨2, ![128, 2]⟩
abbrev S128 : Shape := ⟨1, ![128]⟩
abbrev S5x128 : Shape := ⟨2, ![5, 128]⟩
abbrev S5 : Shape := ⟨1, ![5]⟩
abbrev S_ : Shape := ⟨0, ![]⟩

class Facts : Prop where
  bcast_S_S524288x1 : S_.BroadcastsInDim S524288x1 (![] : Fin 0 → Fin S524288x1.rank)
  reducesTo_S524288x1_S_d0_1 : S524288x1.ReducesTo [0, 1] S_
  h_S_ : 0 < S_.numel
  bcast_S_S1x524288x2 : S_.BroadcastsInDim S1x524288x2 (![] : Fin 0 → Fin S1x524288x2.rank)
  reducesTo_S1x524288x2_S_d0_1_2 : S1x524288x2.ReducesTo [0, 1, 2] S_
  bcast_S_S8x1 : S_.BroadcastsInDim S8x1 (![] : Fin 0 → Fin S8x1.rank)
  reducesTo_S8x1_S_d0_1 : S8x1.ReducesTo [0, 1] S_
  bcast_S_S8x2 : S_.BroadcastsInDim S8x2 (![] : Fin 0 → Fin S8x2.rank)
  reducesTo_S8x2_S_d0_1 : S8x2.ReducesTo [0, 1] S_
  bcast_S_S8 : S_.BroadcastsInDim S8 (![] : Fin 0 → Fin S8.rank)
  reducesTo_S8_S_d0 : S8.ReducesTo [0] S_
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S5x128 : S_.BroadcastsInDim S5x128 (![] : Fin 0 → Fin S5x128.rank)
  reducesTo_S5x128_S_d0_1 : S5x128.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  main_v53

def fn_part2 {F : FTy → Type} [FloatOps F] (main_arg7 : FVec F S128x2 .f32) (main_arg8 : FVec F S128 .f32) (main_arg9 : FVec F S5x128 .f32) (main_arg10 : FVec F S5 .f32) (main_v33 : IVec S_ 1) : IVec S_ 1 :=
  let main_v34 : FVec F S128x2 .f32 := Host.absf main_arg7
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S5x128 .f32 := Host.absf main_arg9
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  let main_v49 : FVec F S5 .f32 := Host.absf main_arg10
  let main_cst_18 : FVec F S_ .f32 := constant S_ .f32 0x7F800000#32
  let main_v50 : FVec F S5 .f32 := broadcastInDim S5 ![] bcast_S_S5 main_cst_18
  fn_part3 (F := F) main_v48 main_v49 main_v50

def fn_part1 {F : FTy → Type} [FloatOps F] (main_arg4 : FVec F S8x2 .f32) (main_arg5 : FVec F S8 .f32) (main_arg6 : FVec F S8 .f32) (main_arg7 : FVec F S128x2 .f32) (main_arg8 : FVec F S128 .f32) (main_arg9 : FVec F S5x128 .f32) (main_arg10 : FVec F S5 .f32) (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  let main_v19 : FVec F S8x2 .f32 := Host.absf main_arg4
  let main_cst_6 : FVec F S_ .f32 := constant S_ .f32 0x7F800000#32
  let main_v20 : FVec F S8x2 .f32 := broadcastInDim S8x2 ![] bcast_S_S8x2 main_cst_6
  let main_v21 : IVec S8x2 1 := cmpf .olt main_v19 main_v20
  let main_c_7 : IVec S_ 1 := constantI S_ 1 1#1
  let main_v22 : IVec S_ 1 := (fun x v => Host.reduce IntOp.andi x v reducesTo_S8x2_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S524288x1 .f32) (main_arg1 : FVec F S1x524288x2 .f32) (main_arg2 : FVec F S1x524288x2 .f32) (main_arg3 : FVec F S8x1 .f32) (main_arg4 : FVec F S8x2 .f32) (main_arg5 : FVec F S8 .f32) (main_arg6 : FVec F S8 .f32) (main_arg7 : FVec F S128x2 .f32) (main_arg8 : FVec F S128 .f32) (main_arg9 : FVec F S5x128 .f32) (main_arg10 : FVec F S5 .f32) : IVec S_ 1 :=
  let main_v0 : FVec F S524288x1 .f32 := Host.absf main_arg0
  let main_cst : FVec F S_ .f32 := constant S_ .f32 0x7F800000#32
  let main_v1 : FVec F S524288x1 .f32 := broadcastInDim S524288x1 ![] bcast_S_S524288x1 main_cst
  let main_v2 : IVec S524288x1 1 := cmpf .olt main_v0 main_v1
  let main_c : IVec S_ 1 := constantI S_ 1 1#1
  let main_v3 : IVec S_ 1 := (fun x v => Host.reduce IntOp.andi x v reducesTo_S524288x1_S_d0_1 h_S_) main_v2 main_c
  let main_v4 : FVec F S1x524288x2 .f32 := Host.absf main_arg1
  let main_cst_0 : FVec F S_ .f32 := constant S_ .f32 0x7F800000#32
  let main_v5 : FVec F S1x524288x2 .f32 := broadcastInDim S1x524288x2 ![] bcast_S_S1x524288x2 main_cst_0
  let main_v6 : IVec S1x524288x2 1 := cmpf .olt main_v4 main_v5
  let main_c_1 : IVec S_ 1 := constantI S_ 1 1#1
  let main_v7 : IVec S_ 1 := (fun x v => Host.reduce IntOp.andi x v reducesTo_S1x524288x2_S_d0_1_2 h_S_) main_v6 main_c_1
  let main_v8 : IVec S_ 1 := andi main_v3 main_v7
  let main_v9 : FVec F S1x524288x2 .f32 := Host.absf main_arg2
  let main_cst_2 : FVec F S_ .f32 := constant S_ .f32 0x7F800000#32
  let main_v10 : FVec F S1x524288x2 .f32 := broadcastInDim S1x524288x2 ![] bcast_S_S1x524288x2 main_cst_2
  let main_v11 : IVec S1x524288x2 1 := cmpf .olt main_v9 main_v10
  let main_c_3 : IVec S_ 1 := constantI S_ 1 1#1
  let main_v12 : IVec S_ 1 := (fun x v => Host.reduce IntOp.andi x v reducesTo_S1x524288x2_S_d0_1_2 h_S_) main_v11 main_c_3
  let main_v13 : IVec S_ 1 := andi main_v8 main_v12
  let main_v14 : FVec F S8x1 .f32 := Host.absf main_arg3
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_arg4 main_arg5 main_arg6 main_arg7 main_arg8 main_arg9 main_arg10 main_v13 main_v16
-- ==== Kernel.lean ====
abbrev S524288x1 : Shape := ⟨2, ![524288, 1]⟩
abbrev S1x524288x2 : Shape := ⟨3, ![1, 524288, 2]⟩
abbrev S8x1 : Shape := ⟨2, ![8, 1]⟩
abbrev S8x2 : Shape := ⟨2, ![8, 2]⟩
abbrev S8 : Shape := ⟨1, ![8]⟩
abbrev S128x2 : Shape := ⟨2, ![128, 2]⟩
abbrev S128 : Shape := ⟨1, ![128]⟩
abbrev S5x128 : Shape := ⟨2, ![5, 128]⟩
abbrev S5 : Shape := ⟨1, ![5]⟩
abbrev S1x524288 : Shape := ⟨2, ![1, 524288]⟩
abbrev S524288x2 : Shape := ⟨2, ![524288, 2]⟩
abbrev S2x524288 : Shape := ⟨2, ![2, 524288]⟩
abbrev S128x1 : Shape := ⟨2, ![128, 1]⟩
abbrev S5x1 : Shape := ⟨2, ![5, 1]⟩
abbrev S5x524288 : Shape := ⟨2, ![5, 524288]⟩
abbrev S1x8192 : Shape := ⟨2, ![1, 8192]⟩
abbrev S2x8192 : Shape := ⟨2, ![2, 8192]⟩
abbrev S5x8192 : Shape := ⟨2, ![5, 8192]⟩
abbrev S8x8192 : Shape := ⟨2, ![8, 8192]⟩
abbrev S128x8192 : Shape := ⟨2, ![128, 8192]⟩
abbrev S524288x5 : Shape := ⟨2, ![524288, 5]⟩

abbrev nBuf : Space → Nat
  | .hbm => 22
  | .vmem => 16
  | .smem => 0
  | _ => 0

abbrev bufTy : (tb : Table) → Fin (tcTables nBuf tb) → BufTy
  | .hbm, ⟨0, _⟩ => ⟨S524288x1, .f32⟩
  | .hbm, ⟨1, _⟩ => ⟨S1x524288x2, .f32⟩
  | .hbm, ⟨2, _⟩ => ⟨S1x524288x2, .f32⟩
  | .hbm, ⟨3, _⟩ => ⟨S8x1, .f32⟩
  | .hbm, ⟨4, _⟩ => ⟨S8x2, .f32⟩
  | .hbm, ⟨5, _⟩ => ⟨S8, .f32⟩
  | .hbm, ⟨6, _⟩ => ⟨S8, .f32⟩
  | .hbm, ⟨7, _⟩ => ⟨S128x2, .f32⟩
  | .hbm, ⟨8, _⟩ => ⟨S128, .f32⟩
  | .hbm, ⟨9, _⟩ => ⟨S5x128, .f32⟩
  | .hbm, ⟨10, _⟩ => ⟨S5, .f32⟩
  | .hbm, ⟨11, _⟩ => ⟨S1x524288, .f32⟩
  | .hbm, ⟨12, _⟩ => ⟨S524288x2, .f32⟩
  | .hbm, ⟨13, _⟩ => ⟨S2x524288, .f32⟩
  | .hbm, ⟨14, _⟩ => ⟨S524288x2, .f32⟩
  | .hbm, ⟨15, _⟩ => ⟨S2x524288, .f32⟩
  | .hbm, ⟨16, _⟩ => ⟨S8x1, .f32⟩
  | .hbm, ⟨17, _⟩ => ⟨S8x1, .f32⟩
  | .hbm, ⟨18, _⟩ => ⟨S128x1, .f32⟩
  | .hbm, ⟨19, _⟩ => ⟨S5x1, .f32⟩
  | .hbm, ⟨20, _⟩ => ⟨S5x524288, .f32⟩
  | .hbm, ⟨21, _⟩ => ⟨S524288x5, .f32⟩
  | .local _ .vmem, ⟨0, _⟩ => ⟨S1x8192, .f32⟩
  | .local _ .vmem, ⟨1, _⟩ => ⟨S1x8192, .f32⟩
  | .local _ .vmem, ⟨2, _⟩ => ⟨S2x8192, .f32⟩
  | .local _ .vmem, ⟨3, _⟩ => ⟨S2x8192, .f32⟩
  | .local _ .vmem, ⟨4, _⟩ => ⟨S2x8192, .f32⟩
  | .local _ .vmem, ⟨5, _⟩ => ⟨S2x8192, .f32⟩
  | .local _ .vmem, ⟨6, _⟩ => ⟨S8x1, .f32⟩
  | .local _ .vmem, ⟨7, _⟩ => ⟨S8x2, .f32⟩
  | .local _ .vmem, ⟨8, _⟩ => ⟨S8x1, .f32⟩
  | .local _ .vmem, ⟨9, _⟩ => ⟨S8x1, .f32⟩
  | .local _ .vmem, ⟨10, _⟩ => ⟨S128x2, .f32⟩
  | .local _ .vmem, ⟨11, _⟩ => ⟨S128x1, .f32⟩
  | .local _ .vmem, ⟨12, _⟩ => ⟨S5x128, .f32⟩
  | .local _ .vmem, ⟨13, _⟩ => ⟨S5x1, .f32⟩
  | .local _ .vmem, ⟨14, _⟩ => ⟨S5x8192, .f32⟩
  | .local _ .vmem, ⟨15, _⟩ => ⟨S5x8192, .f32⟩
  | _, _ => ⟨S524288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S524288x1_S1x524288_1_0 : S524288x1.Transposes [1, 0] S1x524288
  shapeCasts_S1x524288x2_S524288x2 : S1x524288x2.ShapeCasts S524288x2
  transposes_S524288x2_S2x524288_1_0 : S524288x2.Transposes [1, 0] S2x524288
  shapeCasts_S8_S8x1 : S8.ShapeCasts S8x1
  shapeCasts_S128_S128x1 : S128.ShapeCasts S128x1
  shapeCasts_S5_S5x1 : S5.ShapeCasts S5x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  bitsLt_bf16_f32 : FTy.bits .bf16 < FTy.bits .f32
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  inb_S8x1_S8x1_0_0 : ∀ a, (![0, 0] : Fin 2 → Nat) a + S8x1.size a ≤ S8x1.size a
  h_S8x1 : 0 < S8x1.numel
  inb_S8x2_S8x2_0_0 : ∀ a, (![0, 0] : Fin 2 → Nat) a + S8x2.size a ≤ S8x2.size a
  h_S8x2 : 0 < S8x2.numel
  shapeCasts_S8x1_S8x1 : S8x1.ShapeCasts S8x1
  broadcasts_S8x1_S8x8192 : S8x1.Broadcasts S8x8192
  slices_S8x8192_o0_0_S2x8192 : S8x8192.Slices ![0, 0] S2x8192
  slices_S8x8192_o2_0_S2x8192 : S8x8192.Slices ![2, 0] S2x8192
  slices_S8x8192_o4_0_S2x8192 : S8x8192.Slices ![4, 0] S2x8192
  slices_S8x8192_o6_0_S2x8192 : S8x8192.Slices ![6, 0] S2x8192
  inb_S128x2_S128x2_0_0 : ∀ a, (![0, 0] : Fin 2 → Nat) a + S128x2.size a ≤ S128x2.size a
  h_S128x2 : 0 < S128x2.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  inb_S5x128_S5x128_0_0 : ∀ a, (![0, 0] : Fin 2 → Nat) a + S5x128.size a ≤ S5x128.size a
  h_S5x128 : 0 < S5x128.numel
  inb_S5x1_S5x1_0_0 : ∀ a, (![0, 0] : Fin 2 → Nat) a + S5x1.size a ≤ S5x1.size a
  h_S5x1 : 0 < S5x1.numel
  shapeCasts_S5x1_S5x1 : S5x1.ShapeCasts S5x1
  broadcasts_S5x1_S5x8192 : S5x1.Broadcasts S5x8192
  inb_S5x8192_S5x8192_0_0 : ∀ a, (![0, 0] : Fin 2 → Nat) a + S5x8192.size a ≤ S5x8192.size a
  h_S5x8192 : 0 < S5x8192.numel
  transposes_S5x524288_S524288x5_1_0 : S5x524288.Transposes [1, 0] S524288x5
  dot_S8x1_S1x8192_S8x8192_1_0_0_1_n_n_wf : DotDims.WF S8x1 S1x8192 S8x8192 [1] [0] [0] [1] [] []
  dot_S8x2_S2x8192_S8x8192_1_0_0_1_n_n_wf : DotDims.WF S8x2 S2x8192 S8x8192 [1] [0] [0] [1] [] []
  dot_S128x2_S2x8192_S128x8192_1_0_0_1_n_n_wf : DotDims.WF S128x2 S2x8192 S128x8192 [1] [0] [0] [1] [] []
  dot_S5x128_S128x8192_S5x8192_1_0_0_1_n_n_wf : DotDims.WF S5x128 S128x8192 S5x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x524288.size a
  hwx0_0 : ∀ i : grid0.Coords, EltTy.bits .f32 = 32 ∨ (Rect.block (s := S1x524288) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x8192.size a ≤ S2x524288.size a
  hwx0_1 : ∀ i : grid0.Coords, EltTy.bits .f32 = 32 ∨ (Rect.block (s := S2x524288) S2x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8192.size a ≤ S2x524288.size a
  hwx0_2 : ∀ i : grid0.Coords, EltTy.bits .f32 = 32 ∨ (Rect.block (s := S2x524288) S2x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x2.size a ≤ S8x2.size a
  hwx0_4 : ∀ i : grid0.Coords, EltTy.bits .f32 = 32 ∨ (Rect.block (s := S8x2) S8x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S8x1.size a
  hwx0_6 : ∀ i : grid0.Coords, EltTy.bits .f32 = 32 ∨ (Rect.block (s := S8x1) S8x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x2.size a ≤ S128x2.size a
  hwx0_7 : ∀ i : grid0.Coords, EltTy.bits .f32 = 32 ∨ (Rect.block (s := S128x2) S128x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x128.size a ≤ S5x128.size a
  hwx0_9 : ∀ i : grid0.Coords, EltTy.bits .f32 = 32 ∨ (Rect.block (s := S5x128) S5x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S5x1.size a ≤ S5x1.size a
  hwx0_10 : ∀ i : grid0.Coords, EltTy.bits .f32 = 32 ∨ (Rect.block (s := S5x1) S5x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5x8192.size a ≤ S5x524288.size a
  hwx0_11 : ∀ i : grid0.Coords, EltTy.bits .f32 = 32 ∨ (Rect.block (s := S5x524288) S5x8192.size (cc0_transform_11 i) (hinb0_11 i)).WholeWords (EltTy.packing .f32)

variable [Facts₀]

def dot_S8x1_S1x8192_S8x8192_1_0_0_1_n_n : DotDims S8x1 S1x8192 S8x8192 where
  lhsContracting := [1]
  rhsContracting := [0]
  lhsNonContracting := [0]
  rhsNonContracting := [1]
  lhsBatch := []
  rhsBatch := []
  wf := dot_S8x1_S1x8192_S8x8192_1_0_0_1_n_n_wf
def dot_S8x2_S2x8192_S8x8192_1_0_0_1_n_n : DotDims S8x2 S2x8192 S8x8192 where
  lhsContracting := [1]
  rhsContracting := [0]
  lhsNonContracting := [0]
  rhsNonContracting := [1]
  lhsBatch := []
  rhsBatch := []
  wf := dot_S8x2_S2x8192_S8x8192_1_0_0_1_n_n_wf
def dot_S128x2_S2x8192_S128x8192_1_0_0_1_n_n : DotDims S128x2 S2x8192 S128x8192 where
  lhsContracting := [1]
  rhsContracting := [0]
  lhsNonContracting := [0]
  rhsNonContracting := [1]
  lhsBatch := []
  rhsBatch := []
  wf := dot_S128x2_S2x8192_S128x8192_1_0_0_1_n_n_wf
def dot_S5x128_S128x8192_S5x8192_1_0_0_1_n_n : DotDims S5x128 S128x8192 S5x8192 where
  lhsContracting := [1]
  rhsContracting := [0]
  lhsNonContracting := [0]
  rhsNonContracting := [1]
  lhsBatch := []
  rhsBatch := []
  wf := dot_S5x128_S128x8192_S5x8192_1_0_0_1_n_n_wf

abbrev win0_0 : Pipeline.Window sig grid0 :=
  Pipeline.Window.ofSpec (Memref.whole main_v0) S1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S8x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S5x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S5x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S5x8192.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S524288x1 : Shape := ⟨2, ![524288, 1]⟩
abbrev S1x524288x2 : Shape := ⟨3, ![1, 524288, 2]⟩
abbrev S8x1 : Shape := ⟨2, ![8, 1]⟩
abbrev S8x2 : Shape := ⟨2, ![8, 2]⟩
abbrev S8 : Shape := ⟨1, ![8]⟩
abbrev S128x2 : Shape := ⟨2, ![128, 2]⟩
abbrev S128 : Shape := ⟨1, ![128]⟩
abbrev S5x128 : Shape := ⟨2, ![5, 128]⟩
abbrev S5 : Shape := ⟨1, ![5]⟩
abbrev S524288x2 : Shape := ⟨2, ![524288, 2]⟩
abbrev S1x8 : Shape := ⟨2, ![1, 8]⟩
abbrev S524288x8 : Shape := ⟨2, ![524288, 8]⟩
abbrev S2x8 : Shape := ⟨2, ![2, 8]⟩
abbrev S_ : Shape := ⟨0, ![]⟩
abbrev S2x128 : Shape := ⟨2, ![2, 128]⟩
abbrev S524288x128 : Shape := ⟨2, ![524288, 128]⟩
abbrev S1x128 : Shape := ⟨2, ![1, 128]⟩
abbrev S128x5 : Shape := ⟨2, ![128, 5]⟩
abbrev S524288x5 : Shape := ⟨2, ![524288, 5]⟩
abbrev S1x5 : Shape := ⟨2, ![1, 5]⟩

abbrev nBuf : Space → Nat
  | .hbm => 74
  | .vmem => 0
  | .smem => 0
  | _ => 0

abbrev bufTy : (tb : Table) → Fin (tcTables nBuf tb) → BufTy
  | .hbm, ⟨0, _⟩ => ⟨S524288x1, .f32⟩
  | .hbm, ⟨1, _⟩ => ⟨S1x524288x2, .f32⟩
  | .hbm, ⟨2, _⟩ => ⟨S1x524288x2, .f32⟩
  | .hbm, ⟨3, _⟩ => ⟨S8x1, .f32⟩
  | .hbm, ⟨4, _⟩ => ⟨S8x2, .f32⟩
  | .hbm, ⟨5, _⟩ => ⟨S8, .f32⟩
  | .hbm, ⟨6, _⟩ => ⟨S8, .f32⟩
  | .hbm, ⟨7, _⟩ => ⟨S128x2, .f32⟩
  | .hbm, ⟨8, _⟩ => ⟨S128, .f32⟩
  | .hbm, ⟨9, _⟩ => ⟨S5x128, .f32⟩
  | .hbm, ⟨10, _⟩ => ⟨S5, .f32⟩
  | .hbm, ⟨11, _⟩ => ⟨S524288x2, .f32⟩
  | .hbm, ⟨12, _⟩ => ⟨S524288x2, .f32⟩
  | .hbm, ⟨13, _⟩ => ⟨S1x8, .f32⟩
  | .hbm, ⟨14, _⟩ => ⟨S524288x8, .f32⟩
  | .hbm, ⟨15, _⟩ => ⟨S2x8, .f32⟩
  | .hbm, ⟨16, _⟩ => ⟨S524288x8, .f32⟩
  | .hbm, ⟨17, _⟩ => ⟨S524288x8, .f32⟩
  | .hbm, ⟨18, _⟩ => ⟨S1x8, .f32⟩
  | .hbm, ⟨19, _⟩ => ⟨S524288x8, .f32⟩
  | .hbm, ⟨20, _⟩ => ⟨S524288x8, .f32⟩
  | .hbm, ⟨21, _⟩ => ⟨S1x8, .f32⟩
  | .hbm, ⟨22, _⟩ => ⟨S524288x8, .f32⟩
  | .hbm, ⟨23, _⟩ => ⟨S524288x8, .f32⟩
  | .hbm, ⟨24, _⟩ => ⟨S524288x2, .f32⟩
  | .hbm, ⟨25, _⟩ => ⟨S524288x2, .f32⟩
  | .hbm, ⟨26, _⟩ => ⟨S524288x2, .f32⟩
  | .hbm, ⟨27, _⟩ => ⟨S524288x2, .f32⟩
  | .hbm, ⟨28, _⟩ => ⟨S524288x2, .f32⟩
  | .hbm, ⟨29, _⟩ => ⟨S524288x2, .f32⟩
  | .hbm, ⟨30, _⟩ => ⟨S_, .f32⟩
  | .hbm, ⟨31, _⟩ => ⟨S524288x2, .f32⟩
  | .hbm, ⟨32, _⟩ => ⟨S524288x2, .f32⟩
  | .hbm, ⟨33, _⟩ => ⟨S_, .f32⟩
  | .hbm, ⟨34, _⟩ => ⟨S524288x2, .f32⟩
  | .hbm, ⟨35, _⟩ => ⟨S524288x2, .f32⟩
  | .hbm, ⟨36, _⟩ => ⟨S524288x2, .f32⟩
  | .hbm, ⟨37, _⟩ => ⟨S524288x2, .f32⟩
  | .hbm, ⟨38, _⟩ => ⟨S_, .f32⟩
  | .hbm, ⟨39, _⟩ => ⟨S524288x2, .f32⟩
  | .hbm, ⟨40, _⟩ => ⟨S524288x2, .f32⟩
  | .hbm, ⟨41, _⟩ => ⟨S_, .f32⟩
  | .hbm, ⟨42, _⟩ => ⟨S524288x2, .f32⟩
  | .hbm, ⟨43, _⟩ => ⟨S524288x2, .f32⟩
  | .hbm, ⟨44, _⟩ => ⟨S524288x2, .f32⟩
  | .hbm, ⟨45, _⟩ => ⟨S524288x2, .f32⟩
  | .hbm, ⟨46, _⟩ => ⟨S524288x2, .f32⟩
  | .hbm, ⟨47, _⟩ => ⟨S_, .f32⟩
  | .hbm, ⟨48, _⟩ => ⟨S524288x2, .f32⟩
  | .hbm, ⟨49, _⟩ => ⟨S524288x2, .f32⟩
  | .hbm, ⟨50, _⟩ => ⟨S_, .f32⟩
  | .hbm, ⟨51, _⟩ => ⟨S524288x2, .f32⟩
  | .hbm, ⟨52, _⟩ => ⟨S524288x2, .f32⟩
  | .hbm, ⟨53, _⟩ => ⟨S524288x2, .f32⟩
  | .hbm, ⟨54, _⟩ => ⟨S524288x2, .f32⟩
  | .hbm, ⟨55, _⟩ => ⟨S524288x2, .f32⟩
  | .hbm, ⟨56, _⟩ => ⟨S524288x2, .f32⟩
  | .hbm, ⟨57, _⟩ => ⟨S524288x2, .f32⟩
  | .hbm, ⟨58, _⟩ => ⟨S_, .f32⟩
  | .hbm, ⟨59, _⟩ => ⟨S524288x2, .f32⟩
  | .hbm, ⟨60, _⟩ => ⟨S524288x2, .f32⟩
  | .hbm, ⟨61, _⟩ => ⟨S2x128, .f32⟩
  | .hbm, ⟨62, _⟩ => ⟨S524288x128, .f32⟩
  | .hbm, ⟨63, _⟩ => ⟨S1x128, .f32⟩
  | .hbm, ⟨64, _⟩ => ⟨S524288x128, .f32⟩
  | .hbm, ⟨65, _⟩ => ⟨S524288x128, .f32⟩
  | .hbm, ⟨66, _⟩ => ⟨S_, .f32⟩
  | .hbm, ⟨67, _⟩ => ⟨S524288x128, .f32⟩
  | .hbm, ⟨68, _⟩ => ⟨S524288x128, .f32⟩
  | .hbm, ⟨69, _⟩ => ⟨S128x5, .f32⟩
  | .hbm, ⟨70, _⟩ => ⟨S524288x5, .f32⟩
  | .hbm, ⟨71, _⟩ => ⟨S1x5, .f32⟩
  | .hbm, ⟨72, _⟩ => ⟨S524288x5, .f32⟩
  | .hbm, ⟨73, _⟩ => ⟨S524288x5, .f32⟩
  | _, _ => ⟨S524288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_cst : Ref sig .tc := ⟨.hbm, 58, rfl⟩
abbrev main_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  shapeCasts_S1x524288x2_S524288x2 : S1x524288x2.ShapeCasts S524288x2
  transposes_S8x1_S1x8_1_0 : S8x1.Transposes [1, 0] S1x8
  transposes_S8x2_S2x8_1_0 : S8x2.Transposes [1, 0] S2x8
  bcast_S8_S1x8_1 : S8.BroadcastsInDim S1x8 (![1] : Fin 1 → Fin S1x8.rank)
  bcast_S1x8_S524288x8_0_1 : S1x8.BroadcastsInDim S524288x8 (![0, 1] : Fin 2 → Fin S524288x8.rank)
  slices_S524288x8_S524288x2_0_0 : S524288x8.Slices ![0, 0] S524288x2
  slices_S524288x8_S524288x2_0_2 : S524288x8.Slices ![0, 2] S524288x2
  slices_S524288x8_S524288x2_0_4 : S524288x8.Slices ![0, 4] S524288x2
  slices_S524288x8_S524288x2_0_6 : S524288x8.Slices ![0, 6] S524288x2
  bcast_S_S524288x2 : S_.BroadcastsInDim S524288x2 (![] : Fin 0 → Fin S524288x2.rank)
  transposes_S128x2_S2x128_1_0 : S128x2.Transposes [1, 0] S2x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  transposes_S5x128_S128x5_1_0 : S5x128.Transposes [1, 0] S128x5
  bcast_S5_S1x5_1 : S5.BroadcastsInDim S1x5 (![1] : Fin 1 → Fin S1x5.rank)
  bcast_S1x5_S524288x5_0_1 : S1x5.BroadcastsInDim S524288x5 (![0, 1] : Fin 2 → Fin S524288x5.rank)
  dot_S524288x1_S1x8_S524288x8_1_0_0_1_n_n_wf : DotDims.WF S524288x1 S1x8 S524288x8 [1] [0] [0] [1] [] []
  dot_S524288x2_S2x8_S524288x8_1_0_0_1_n_n_wf : DotDims.WF S524288x2 S2x8 S524288x8 [1] [0] [0] [1] [] []
  dot_S524288x2_S2x128_S524288x128_1_0_0_1_n_n_wf : DotDims.WF S524288x2 S2x128 S524288x128 [1] [0] [0] [1] [] []
  dot_S524288x128_S128x5_S524288x5_1_0_0_1_n_n_wf : DotDims.WF S524288x128 S128x5 S524288x5 [1] [0] [0] [1] [] []

variable [Facts₀]

def dot_S524288x1_S1x8_S524288x8_1_0_0_1_n_n : DotDims S524288x1 S1x8 S524288x8 where
  lhsContracting := [1]
  rhsContracting := [0]
  lhsNonContracting := [0]
  rhsNonContracting := [1]
  lhsBatch := []
  rhsBatch := []
  wf := dot_S524288x1_S1x8_S524288x8_1_0_0_1_n_n_wf
def dot_S524288x2_S2x8_S524288x8_1_0_0_1_n_n : DotDims S524288x2 S2x8 S524288x8 where
  lhsContracting := [1]
  rhsContracting := [0]
  lhsNonContracting := [0]
  rhsNonContracting := [1]
  lhsBatch := []
  rhsBatch := []
  wf := dot_S524288x2_S2x8_S524288x8_1_0_0_1_n_n_wf
def dot_S524288x2_S2x128_S524288x128_1_0_0_1_n_n : DotDims S524288x2 S2x128 S524288x128 where
  lhsContracting := [1]
  rhsContracting := [0]
  lhsNonContracting := [0]
  rhsNonContracting := [1]
  lhsBatch := []
  rhsBatch := []
  wf := dot_S524288x2_S2x128_S524288x128_1_0_0_1_n_n_wf
def dot_S524288x128_S128x5_S524288x5_1_0_0_1_n_n : DotDims S524288x128 S128x5 S524288x5 where
  lhsContracting := [1]
  rhsContracting := [0]
  lhsNonContracting := [0]
  rhsNonContracting := [1]
  lhsBatch := []
  rhsBatch := []
  wf := dot_S524288x128_S128x5_S524288x5_1_0_0_1_n_n_wf

class Facts : Prop extends Facts₀ where

variable [Facts]
-- ==== Proof.Spec.lean ====
import Idealize.ShloMosaic.PureOps.Ideal
import Idealize.ShloMosaic.Lib.ValueIdx

/-!
  One batch row of a single-step LSTM cell followed by a two-layer head, on the extended reals.

  A row reads its input `x` (one feature), its previous hidden and cell states `h`, `c` (two features each) and the
  shared weights. The eight gate pre-activations are `W_ih · x + W_hh · h + b_ih + b_hh`, rows 0–1 the input gate,
  2–3 the forget gate, 4–5 the candidate, 6–7 the output gate. The new cell state is `σ(f) · c + σ(i) · tanh(g)`, the
  new hidden state `σ(o) · tanh(cell)`, clamped below at zero; the head is `W2 · max(W1 · hidden + b1, 0) + b2`.
  Every product is written weight first, and every sum is grouped as the programs group it.
-/

open scoped BigOperators

noncomputable section

namespace Cert.LstmHead

open Idealize.ShloMosaic

/-- Row `o + u` of the eight gate rows, for a gate starting at row `o` and a feature `u`. -/
abbrev gateRow (o : Nat) (ho : o + 2 ≤ 8) (u : Fin 2) : Fin 8 := ⟨o + u.val, by have := u.isLt; omega⟩

/-- Gate pre-activation `r`: `((W_ih · x + W_hh · h) + b_ih) + b_hh`. -/
def gate (x : Fin 1 → EReal) (h : Fin 2 → EReal) (wih : Fin 8 → Fin 1 → EReal) (whh : Fin 8 → Fin 2 → EReal)
    (bih bhh : Fin 8 → EReal) (r : Fin 8) : EReal :=
  (∑ k : Fin 1, wih r k * x k) + (∑ k : Fin 2, whh r k * h k) + bih r + bhh r

/-- The new cell state: `σ(forget) · c + σ(input) · tanh(candidate)`. -/
def cell (x : Fin 1 → EReal) (h c : Fin 2 → EReal) (wih : Fin 8 → Fin 1 → EReal) (whh : Fin 8 → Fin 2 → EReal)
    (bih bhh : Fin 8 → EReal) (u : Fin 2) : EReal :=
  Ideal.logistic (gate x h wih whh bih bhh (gateRow 2 (by omega) u)) * c u
    + Ideal.logistic (gate x h wih whh bih bhh (gateRow 0 (by omega) u))
      * Ideal.tanh (gate x h wih whh bih bhh (gateRow 4 (by omega) u))

/-- The new hidden state, clamped below at zero: `max (σ(output) · tanh(cell)) 0`. -/
def hidden (x : Fin 1 → EReal) (h c : Fin 2 → EReal) (wih : Fin 8 → Fin 1 → EReal) (whh : Fin 8 → Fin 2 → EReal)
    (bih bhh : Fin 8 → EReal) (u : Fin 2) : EReal :=
  max (Ideal.logistic (gate x h wih whh bih bhh (gateRow 6 (by omega) u)) * Ideal.tanh (cell x h c wih whh bih bhh u)) 0

/-- The head's first layer: `max (W1 · hidden + b1) 0`. -/
def layer1 (x : Fin 1 → EReal) (h c : Fin 2 → EReal) (wih : Fin 8 → Fin 1 → EReal) (whh : Fin 8 → Fin 2 → EReal)
    (bih bhh : Fin 8 → EReal) (w1 : Fin 128 → Fin 2 → EReal) (b1 : Fin 128 → EReal) (a : Fin 128) : EReal :=
  max ((∑ k : Fin 2, w1 a k * hidden x h c wih whh bih bhh k) + b1 a) 0

/-- The row's result: `W2 · layer1 + b2`. -/
def row (x : Fin 1 → EReal) (h c : Fin 2 → EReal) (wih : Fin 8 → Fin 1 → EReal) (whh : Fin 8 → Fin 2 → EReal)
    (bih bhh : Fin 8 → EReal) (w1 : Fin 128 → Fin 2 → EReal) (b1 : Fin 128 → EReal) (w2 : Fin 5 → Fin 128 → EReal)
    (b2 : Fin 5 → EReal) (j : Fin 5) : EReal :=
  (∑ k : Fin 128, w2 j k * layer1 x h c wih whh bih bhh w1 b1 k) + b2 j

open ValueIdx in
/-- The whole result, batch row `n` and class `j` at `(n, j)`, from the eleven argument arrays as they are passed:
    `x` [B, 1], `h0` and `c0` [1, B, 2], the weights and biases in their own shapes. -/
def result (x : (⟨2, ![524288, 1]⟩ : Shape).Idx → EReal) (h0 c0 : (⟨3, ![1, 524288, 2]⟩ : Shape).Idx → EReal)
    (wih : (⟨2, ![8, 1]⟩ : Shape).Idx → EReal) (whh : (⟨2, ![8, 2]⟩ : Shape).Idx → EReal)
    (bih bhh : (⟨1, ![8]⟩ : Shape).Idx → EReal) (w1 : (⟨2, ![128, 2]⟩ : Shape).Idx → EReal)
    (b1 : (⟨1, ![128]⟩ : Shape).Idx → EReal) (w2 : (⟨2, ![5, 128]⟩ : Shape).Idx → EReal)
    (b2 : (⟨1, ![5]⟩ : Shape).Idx → EReal) : (⟨2, ![524288, 5]⟩ : Shape).Idx → EReal :=
  fun i => row (fun k => x (ix2 (i 0) k)) (fun k => h0 (ix3 0 (i 0) k)) (fun k => c0 (ix3 0 (i 0) k))
    (fun r k => wih (ix2 r k)) (fun r k => whh (ix2 r k)) (fun r => bih (ix1 r)) (fun r => bhh (ix1 r))
    (fun a k => w1 (ix2 a k)) (fun a => b1 (ix1 a)) (fun j k => w2 (ix2 j k)) (fun j => b2 (ix1 j)) (i 1)

end Cert.LstmHead

end
-- ==== Proof.Entry.lean ====
import proofs.«126714_j33225867002038_1_alg».proof.Proof.Gen.KernelIdeal.Frame
import Idealize.ShloMosaic.Lib.ValueIdx
import Idealize.ShloMosaic.Lib.Pipeline.Value
import Idealize.ShloMosaic.Lib.StableHlo.Run

/-!
  What the kernel finds in its operand arrays, read at an index, in terms of the arguments as they were passed.

  Before the kernel runs the batch is moved to the last axis: the input [B, 1] is transposed to [1, B]; the previous
  hidden and cell states [1, B, 2] lose their unit axis and are transposed to [2, B]; each bias vector [n] becomes a
  column [n, 1]. So entry (k, n) of a transposed array is entry (n, k) of the argument, entry (k, n) of a transposed
  state is entry (0, n, k) of the argument, and entry (r, 0) of a bias column is entry r of the bias.
-/

noncomputable section

namespace Cert.LstmHead.Entry

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The input, transposed -/

theorem input_eq (c : Dev nD) :
    (V m c main_v0 : S1x524288.Idx → EReal)
      = transpose S1x524288 [1, 0] (m ((c : Thread nD τ).loc main_arg0)) transposes_S524288x1_S1x524288_1_0 := by
  show StableHlo.after hostOps0 (fun b => m (c, b)) (Proc.devRef .tc main_v0) = _
  after_results

/-- Entry (k, n) of the transposed input is entry (n, k) of the input. -/
theorem input_apply (c : Dev nD) (k : Fin 1) (n : Fin 524288) :
    (V m c main_v0 : S1x524288.Idx → EReal) (ix2 k n) = m ((c : Thread nD τ).loc main_arg0) (ix2 n k) := by
  rw [input_eq]
  exact transpose_apply [1, 0] _ transposes_S524288x1_S1x524288_1_0 (ix2 k n) (ix2 n k) (fun b => match b with
    | ⟨0, _⟩ => rfl
    | ⟨1, _⟩ => rfl)

/-! ## The previous hidden and cell states, flattened and transposed -/

/-- Dropping the unit axis of a [1, B, 2] array and transposing: entry (k, n) of the result is entry (0, n, k). -/
theorem state_apply (a : S1x524288x2.Idx → EReal) (k : Fin 2) (n : Fin 524288) :
    transpose S2x524288 [1, 0] (shapeCast S524288x2 a shapeCasts_S1x524288x2_S524288x2) transposes_S524288x2_S2x524288_1_0 (ix2 k n)
      = a (ix3 0 n k) := by
  refine (transpose_apply [1, 0] _ transposes_S524288x2_S2x524288_1_0 (ix2 k n) (ix2 n k) (fun b => match b with
    | ⟨0, _⟩ => rfl
    | ⟨1, _⟩ => rfl)).trans ?_
  exact shapeCast_apply a shapeCasts_S1x524288x2_S524288x2 (ix2 n k) (ix3 0 n k)
    (by rw [Shape.rowMajor_val_three, Shape.rowMajor_val_two]; show (0 * 524288 + n.val) * 2 + k.val = n.val * 2 + k.val; omega)

theorem hidden_eq (c : Dev nD) :
    (V m c main_v2 : S2x524288.Idx → EReal)
      = transpose S2x524288 [1, 0] (shapeCast S524288x2 (m ((c : Thread nD τ).loc main_arg1)) shapeCasts_S1x524288x2_S524288x2) transposes_S524288x2_S2x524288_1_0 := by
  show StableHlo.after hostOps0 (fun b => m (c, b)) (Proc.devRef .tc main_v2) = _
  after_results
  rfl

theorem hidden_apply (c : Dev nD) (k : Fin 2) (n : Fin 524288) :
    (V m c main_v2 : S2x524288.Idx → EReal) (ix2 k n) = m ((c : Thread nD τ).loc main_arg1) (ix3 0 n k) := by
  rw [hidden_eq]; exact state_apply _ k n

theorem cell_eq (c : Dev nD) :
    (V m c main_v4 : S2x524288.Idx → EReal)
      = transpose S2x524288 [1, 0] (shapeCast S524288x2 (m ((c : Thread nD τ).loc main_arg2)) shapeCasts_S1x524288x2_S524288x2) transposes_S524288x2_S2x524288_1_0 := by
  show StableHlo.after hostOps0 (fun b => m (c, b)) (Proc.devRef .tc main_v4) = _
  after_results
  rfl

theorem cell_apply (c : Dev nD) (k : Fin 2) (n : Fin 524288) :
    (V m c main_v4 : S2x524288.Idx → EReal) (ix2 k n) = m ((c : Thread nD τ).loc main_arg2) (ix3 0 n k) := by
  rw [cell_eq]; exact state_apply _ k n

/-! ## The biases, as columns -/

theorem biasIh_eq (c : Dev nD) :
    (V m c main_v5 : S8x1.Idx → EReal) = shapeCast S8x1 (m ((c : Thread nD τ).loc main_arg5)) shapeCasts_S8_S8x1 := by
  show StableHlo.after hostOps0 (fun b => m (c, b)) (Proc.devRef .tc main_v5) = _
  after_results
  rfl

theorem biasIh_apply (c : Dev nD) (r : Fin 8) :
    (V m c main_v5 : S8x1.Idx → EReal) (ix2 r 0) = m ((c : Thread nD τ).loc main_arg5) (ix1 r) := by
  rw [biasIh_eq]
  exact shapeCast_apply _ shapeCasts_S8_S8x1 (ix2 r 0) (ix1 r)
    (by rw [Shape.rowMajor_val_one, Shape.rowMajor_val_two]; show r.val = r.val * 1 + 0; omega)

theorem biasHh_eq (c : Dev nD) :
    (V m c main_v6 : S8x1.Idx → EReal) = shapeCast S8x1 (m ((c : Thread nD τ).loc main_arg6)) shapeCasts_S8_S8x1 := by
  show StableHlo.after hostOps0 (fun b => m (c, b)) (Proc.devRef .tc main_v6) = _
  after_results
  rfl

theorem biasHh_apply (c : Dev nD) (r : Fin 8) :
    (V m c main_v6 : S8x1.Idx → EReal) (ix2 r 0) = m ((c : Thread nD τ).loc main_arg6) (ix1 r) := by
  rw [biasHh_eq]
  exact shapeCast_apply _ shapeCasts_S8_S8x1 (ix2 r 0) (ix1 r)
    (by rw [Shape.rowMajor_val_one, Shape.rowMajor_val_two]; show r.val = r.val * 1 + 0; omega)

theorem bias1_eq (c : Dev nD) :
    (V m c main_v7 : S128x1.Idx → EReal) = shapeCast S128x1 (m ((c : Thread nD τ).loc main_arg8)) shapeCasts_S128_S128x1 := by
  show StableHlo.after hostOps0 (fun b => m (c, b)) (Proc.devRef .tc main_v7) = _
  after_results
  rfl

theorem bias1_apply (c : Dev nD) (a : Fin 128) :
    (V m c main_v7 : S128x1.Idx → EReal) (ix2 a 0) = m ((c : Thread nD τ).loc main_arg8) (ix1 a) := by
  rw [bias1_eq]
  exact shapeCast_apply _ shapeCasts_S128_S128x1 (ix2 a 0) (ix1 a)
    (by rw [Shape.rowMajor_val_one, Shape.rowMajor_val_two]; show a.val = a.val * 1 + 0; omega)

theorem bias2_eq (c : Dev nD) :
    (V m c main_v8 : S5x1.Idx → EReal) = shapeCast S5x1 (m ((c : Thread nD τ).loc main_arg10)) shapeCasts_S5_S5x1 := by
  show StableHlo.after hostOps0 (fun b => m (c, b)) (Proc.devRef .tc main_v8) = _
  after_results
  rfl

theorem bias2_apply (c : Dev nD) (j : Fin 5) :
    (V m c main_v8 : S5x1.Idx → EReal) (ix2 j 0) = m ((c : Thread nD τ).loc main_arg10) (ix1 j) := by
  rw [bias2_eq]
  exact shapeCast_apply _ shapeCasts_S5_S5x1 (ix2 j 0) (ix1 j)
    (by rw [Shape.rowMajor_val_one, Shape.rowMajor_val_two]; show j.val = j.val * 1 + 0; omega)

end Cert.LstmHead.Entry

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Payload.lean ====
import proofs.«126714_j33225867002038_1_alg».proof.Proof.Gen.KernelIdeal.Skeleton
import proofs.«126714_j33225867002038_1_alg».proof.Proof.Spec
import proofs.«126714_j33225867002038_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

/-!
  The kernel body's one stored value, read at class `j` and lane `q` of a tile: it is the row function of the
  readers of lane `q` — the input, hidden and cell blocks read down column `q`, the weights whole, each bias
  read down its single column.
-/

open scoped BigOperators

noncomputable section

namespace Cert.LstmHead.Kernel

open Idealize.ShloMosaic Idealize.ShloMosaic.TcCoe Idealize.ShloMosaic.ValueIdx Cert.KernelIdeal Cert.KernelIdeal.Gen

/-- A column of shape [a, 1] broadcast along the second axis to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias column, cast to its own shape and broadcast along the lanes, reads at (p, c) the bias of row p. -/
theorem biasCol_apply {α : Type} {a b : ℕ} (v : (⟨2, ![a, 1]⟩ : Shape).Idx → α)
    (hc : (⟨2, ![a, 1]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix2 p (0 : Fin 1)) :=
  (broadcastTo_a1_ab_apply _ hb p c).trans (congrFun (shapeCast_self v hc) _)

/-- The input weights times the input row: entry (r, q) is the sum over the one input feature. -/
theorem dotA_apply (x3 : Vec Ideal S8x1 .f32) (x0 : Vec Ideal S1x8192 .f32) (r : Fin 8) (q : Fin 8192) :
    matmul dot_S8x1_S1x8192_S8x8192_1_0_0_1_n_n none (truncf .bf16 x3 bitsLt_bf16_f32)
        (truncf .bf16 (shapeCast S1x8192 x0 shapeCasts_S1x8192_S1x8192) bitsLt_bf16_f32)
        (constant (F := Ideal) S8x8192 .f32 0x00000000#32) (ix2 r q)
      = ∑ k : Fin 1, x3 (ix2 r k) * x0 (ix2 k q) := by
  rw [shapeCast_self]
  exact Cert.Lib.PlainDot.matmul_zero_apply _ rfl rfl rfl rfl rfl rfl none _ _ r q

/-- The recurrent weights times the previous hidden state: entry (r, q) is the sum over the two hidden features. -/
theorem dotB_apply (x4 : Vec Ideal S8x2 .f32) (x1 : Vec Ideal S2x8192 .f32) (r : Fin 8) (q : Fin 8192) :
    matmul dot_S8x2_S2x8192_S8x8192_1_0_0_1_n_n none (truncf .bf16 x4 bitsLt_bf16_f32)
        (truncf .bf16 (shapeCast S2x8192 x1 shapeCasts_S2x8192_S2x8192) bitsLt_bf16_f32)
        (constant (F := Ideal) S8x8192 .f32 0x00000000#32) (ix2 r q)
      = ∑ k : Fin 2, x4 (ix2 r k) * x1 (ix2 k q) := by
  rw [shapeCast_self]
  exact Cert.Lib.PlainDot.matmul_zero_apply _ rfl rfl rfl rfl rfl rfl none _ _ r q

/-- The array of the eight gate pre-activations over the lanes of a tile: the two products and the two bias columns,
    summed in this order. -/
def gateArr (x0 : Vec Ideal S1x8192 .f32) (x1 : Vec Ideal S2x8192 .f32) (x3 : Vec Ideal S8x1 .f32)
    (x4 : Vec Ideal S8x2 .f32) (x5 x6 : Vec Ideal S8x1 .f32) : FVec Ideal S8x8192 .f32 :=
  addf (addf (addf
      (matmul dot_S8x1_S1x8192_S8x8192_1_0_0_1_n_n none (truncf .bf16 x3 bitsLt_bf16_f32)
        (truncf .bf16 (shapeCast S1x8192 x0 shapeCasts_S1x8192_S1x8192) bitsLt_bf16_f32)
        (constant S8x8192 .f32 0x00000000#32))
      (matmul dot_S8x2_S2x8192_S8x8192_1_0_0_1_n_n none (truncf .bf16 x4 bitsLt_bf16_f32)
        (truncf .bf16 (shapeCast S2x8192 x1 shapeCasts_S2x8192_S2x8192) bitsLt_bf16_f32)
        (constant S8x8192 .f32 0x00000000#32)))
      (broadcastTo S8x8192 (shapeCast S8x1 x5 shapeCasts_S8x1_S8x1) broadcasts_S8x1_S8x8192))
    (broadcastTo S8x8192 (shapeCast S8x1 x6 shapeCasts_S8x1_S8x1) broadcasts_S8x1_S8x8192)

/-- The gate array at (r, q) is gate pre-activation r of the readers of lane q. -/
theorem gateArr_apply (x0 : Vec Ideal S1x8192 .f32) (x1 : Vec Ideal S2x8192 .f32) (x3 : Vec Ideal S8x1 .f32)
    (x4 : Vec Ideal S8x2 .f32) (x5 x6 : Vec Ideal S8x1 .f32) (r : Fin 8) (q : Fin 8192) :
    gateArr x0 x1 x3 x4 x5 x6 (ix2 r q)
      = gate (fun k => x0 (ix2 k q)) (fun k => x1 (ix2 k q)) (fun r k => x3 (ix2 r k)) (fun r k => x4 (ix2 r k))
          (fun r => x5 (ix2 r 0)) (fun r => x6 (ix2 r 0)) r := by
  unfold gateArr gate
  exact congrArg₂ (· + ·) (congrArg₂ (· + ·) (congrArg₂ (· + ·) (dotA_apply x3 x0 r q) (dotB_apply x4 x1 r q))
    (biasCol_apply x5 _ _ r q)) (biasCol_apply x6 _ _ r q)

/-- Two rows of the gate array from row o on: at (u, q) it is the gate array at row o + u. -/
theorem gateSlice_apply (o : Nat) (ho : o + 2 ≤ 8) (G : FVec Ideal S8x8192 .f32)
    (h : S8x8192.Slices ![o, 0] S2x8192) (u : Fin 2) (q : Fin 8192) :
    extractStridedSlice S2x8192 ![o, 0] G h (ix2 u q) = G (ix2 (gateRow o ho u) q) :=
  slice2_axis0_apply o G h u q (gateRow o ho u) rfl

/-- The cell's stored value at (u, q) is the clamped new hidden state, feature u, of the readers of lane q. -/
theorem pay2_apply (x0 : Vec Ideal S1x8192 .f32) (x1 x2 : Vec Ideal S2x8192 .f32) (x3 : Vec Ideal S8x1 .f32)
    (x4 : Vec Ideal S8x2 .f32) (x5 x6 : Vec Ideal S8x1 .f32) (u : Fin 2) (q : Fin 8192) :
    k0_pay2 (F := Ideal) x0 x1 x2 x3 x4 x5 x6 (ix2 u q)
      = hidden (fun k => x0 (ix2 k q)) (fun k => x1 (ix2 k q)) (fun k => x2 (ix2 k q))
          (fun r k => x3 (ix2 r k)) (fun r k => x4 (ix2 r k)) (fun r => x5 (ix2 r 0)) (fun r => x6 (ix2 r 0)) u := by
  have hG : ∀ (o : Nat) (ho : o + 2 ≤ 8) (h : S8x8192.Slices ![o, 0] S2x8192),
      extractStridedSlice S2x8192 ![o, 0] (gateArr x0 x1 x3 x4 x5 x6) h (ix2 u q)
        = gate (fun k => x0 (ix2 k q)) (fun k => x1 (ix2 k q)) (fun r k => x3 (ix2 r k)) (fun r k => x4 (ix2 r k))
            (fun r => x5 (ix2 r 0)) (fun r => x6 (ix2 r 0)) (gateRow o ho u) :=
    fun o ho h => (gateSlice_apply o ho _ h u q).trans (gateArr_apply x0 x1 x3 x4 x5 x6 _ q)
  show max (Ideal.logistic (extractStridedSlice S2x8192 ![6, 0] (gateArr x0 x1 x3 x4 x5 x6) slices_S8x8192_o6_0_S2x8192 (ix2 u q))
      * Ideal.tanh (Ideal.logistic (extractStridedSlice S2x8192 ![2, 0] (gateArr x0 x1 x3 x4 x5 x6) slices_S8x8192_o2_0_S2x8192 (ix2 u q))
            * shapeCast S2x8192 x2 shapeCasts_S2x8192_S2x8192 (ix2 u q)
          + Ideal.logistic (extractStridedSlice S2x8192 ![0, 0] (gateArr x0 x1 x3 x4 x5 x6) slices_S8x8192_o0_0_S2x8192 (ix2 u q))
            * Ideal.tanh (extractStridedSlice S2x8192 ![4, 0] (gateArr x0 x1 x3 x4 x5 x6) slices_S8x8192_o4_0_S2x8192 (ix2 u q))))
    (Ideal.ofBits .f32 0x00000000#32) = _
  rw [hG 6 (by omega), hG 2 (by omega), hG 0 (by omega), hG 4 (by omega), shapeCast_self, Ideal.ofBits_zero_f32]
  rfl

/-- The head's first layer over the lanes of a tile, from a hidden-state block. -/
def layer1Arr (h : FVec Ideal S2x8192 .bf16) (x7 : Vec Ideal S128x2 .f32) (x8 : Vec Ideal S128x1 .f32) :
    FVec Ideal S128x8192 .f32 :=
  maximumf (addf
      (matmul dot_S128x2_S2x8192_S128x8192_1_0_0_1_n_n none (truncf .bf16 x7 bitsLt_bf16_f32) h
        (constant S128x8192 .f32 0x00000000#32))
      (broadcastTo S128x8192 (shapeCast S128x1 x8 shapeCasts_S128x1_S128x1) broadcasts_S128x1_S128x8192))
    (broadcast S128x8192 (Scalar.ofBits .f32 0x00000000#32))

/-- The first layer at (a, q): the clamped sum over the two hidden features plus the bias of unit a. -/
theorem layer1Arr_apply (h : FVec Ideal S2x8192 .bf16) (x7 : Vec Ideal S128x2 .f32) (x8 : Vec Ideal S128x1 .f32)
    (a : Fin 128) (q : Fin 8192) :
    layer1Arr h x7 x8 (ix2 a q) = max ((∑ m : Fin 2, x7 (ix2 a m) * h (ix2 m q)) + x8 (ix2 a 0)) 0 := by
  unfold layer1Arr
  show max (_ + _) (Ideal.ofBits .f32 0x00000000#32) = _
  rw [Ideal.ofBits_zero_f32]
  exact congrArg (max · 0) (congrArg₂ (· + ·)
    (Cert.Lib.PlainDot.matmul_zero_apply _ rfl rfl rfl rfl rfl rfl none _ _ a q) (biasCol_apply x8 _ _ a q))

/-- The head's stored value at (j, q), for any hidden-state block: the second layer over the first. -/
theorem pay1_apply (h : FVec Ideal S2x8192 .bf16) (x7 : Vec Ideal S128x2 .f32) (x8 : Vec Ideal S128x1 .f32)
    (x9 : Vec Ideal S5x128 .f32) (x10 : Vec Ideal S5x1 .f32) (j : Fin 5) (q : Fin 8192) :
    k0_pay1 (F := Ideal) h x7 x8 x9 x10 (ix2 j q)
      = (∑ k : Fin 128, x9 (ix2 j k) * max ((∑ m : Fin 2, x7 (ix2 k m) * h (ix2 m q)) + x8 (ix2 k 0)) 0)
          + x10 (ix2 j 0) := by
  show matmul dot_S5x128_S128x8192_S5x8192_1_0_0_1_n_n none (truncf .bf16 x9 bitsLt_bf16_f32)
        (truncf .bf16 (layer1Arr h x7 x8) bitsLt_bf16_f32) (constant (F := Ideal) S5x8192 .f32 0x00000000#32) (ix2 j q)
      + broadcastTo S5x8192 (shapeCast S5x1 x10 shapeCasts_S5x1_S5x1) broadcasts_S5x1_S5x8192 (ix2 j q) = _
  refine congrArg₂ (· + ·) ((Cert.Lib.PlainDot.matmul_zero_apply _ rfl rfl rfl rfl rfl rfl none _ _ j q).trans
    (Finset.sum_congr rfl fun k _ => congrArg (x9 (ix2 j k) * ·) (layer1Arr_apply h x7 x8 k q))) (biasCol_apply x10 _ _ j q)

theorem payload_apply (x0 : Vec Ideal S1x8192 .f32) (x1 x2 : Vec Ideal S2x8192 .f32) (x3 : Vec Ideal S8x1 .f32)
    (x4 : Vec Ideal S8x2 .f32) (x5 x6 : Vec Ideal S8x1 .f32) (x7 : Vec Ideal S128x2 .f32) (x8 : Vec Ideal S128x1 .f32)
    (x9 : Vec Ideal S5x128 .f32) (x10 : Vec Ideal S5x1 .f32) (j : Fin 5) (q : Fin 8192) :
    k0_pay1 (F := Ideal) (k0_pay2 (F := Ideal) x0 x1 x2 x3 x4 x5 x6) x7 x8 x9 x10 (ix2 j q)
      = Cert.LstmHead.row (fun k => x0 (ix2 k q)) (fun k => x1 (ix2 k q)) (fun k => x2 (ix2 k q))
          (fun r k => x3 (ix2 r k)) (fun r k => x4 (ix2 r k)) (fun r => x5 (ix2 r 0)) (fun r => x6 (ix2 r 0))
          (fun a k => x7 (ix2 a k)) (fun a => x8 (ix2 a 0)) (fun j k => x9 (ix2 j k)) (fun j => x10 (ix2 j 0)) j := by
  refine (pay1_apply _ x7 x8 x9 x10 j q).trans ?_
  unfold row layer1
  refine congrArg (· + x10 (ix2 j 0)) (Finset.sum_congr rfl fun k _ => ?_)
  refine congrArg (fun t => x9 (ix2 j k) * max (t + x8 (ix2 k 0)) 0) (Finset.sum_congr rfl fun m _ => ?_)
  exact congrArg (x7 (ix2 k m) * ·) (pay2_apply x0 x1 x2 x3 x4 x5 x6 m q)

end Cert.LstmHead.Kernel

end
-- ==== Proof.Blocks.lean ====
import proofs.«126714_j33225867002038_1_alg».proof.Proof.Gen.KernelIdeal.Frame
import proofs.«126714_j33225867002038_1_alg».proof.Proof.Spec
import proofs.«126714_j33225867002038_1_alg».proof.Proof.Entry
import proofs.«126714_j33225867002038_1_alg».proof.Proof.Payload
import Idealize.ShloMosaic.Lib.ValueIdx
import Idealize.ShloMosaic.Lib.Pipeline.Value

/-!
  From tiles to the whole array.

  The kernel walks the batch in 64 tiles of 8192 lanes. At tile `t` the three batch-indexed operands are read at
  columns `t · 8192 + q`, the weights and bias columns whole, and the [5, 8192] result tile is written back at the
  same columns. Since the body's value at lane `q` is the row function of the readers of lane `q`, tile `t` of the
  output is tile `t` of ONE array: the transposed result, entry (j, n) the row function of batch row `n` at class `j`.
  Every column lies in the tile `n / 8192`, so the tiles cover the array and it ends holding that function.
-/

set_option maxRecDepth 16384

noncomputable section

namespace Cert.LstmHead.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- The transposed result: entry (j, n) is the row function of batch row `n` of the arguments, at class `j`. -/
def resultT (c : Dev nD) : S5x524288.Idx → EReal := fun i =>
  Cert.LstmHead.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (ix2 (i 1) (i 0))

theorem zeros : (![0, 0] : Fin 2 → Nat) = fun _ => 0 := funext fun a => by fin_cases a <;> rfl

theorem point_lt (t : Fin cfg0.N) : t.val < 64 := by
  have h : t.val < grid0.N := t.isLt
  rw [N_0] at h; exact h

/-- The block indices, decided over the 64 tiles: the batch-indexed windows sit at block (0, t), the others at (0, 0). -/
theorem moving : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_11.index t (0 : Fin 2) = 0 ∧ win0_11.index t (1 : Fin 2) = t.val :=
  (by decide +kernel : ∀ t : Fin grid0.N, _)

theorem resident : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## The blocks at a tile, each named at its literal type -/

abbrev xBlk (c : Dev nD) (t : Fin cfg0.N) : Vec Ideal S1x8192 .f32 := iblk m c 0 t
abbrev hBlk (c : Dev nD) (t : Fin cfg0.N) : Vec Ideal S2x8192 .f32 := iblk m c 1 t
abbrev cBlk (c : Dev nD) (t : Fin cfg0.N) : Vec Ideal S2x8192 .f32 := iblk m c 2 t
abbrev wihBlk (c : Dev nD) (t : Fin cfg0.N) : Vec Ideal S8x1 .f32 := iblk m c 3 t
abbrev whhBlk (c : Dev nD) (t : Fin cfg0.N) : Vec Ideal S8x2 .f32 := iblk m c 4 t
abbrev bihBlk (c : Dev nD) (t : Fin cfg0.N) : Vec Ideal S8x1 .f32 := iblk m c 5 t
abbrev bhhBlk (c : Dev nD) (t : Fin cfg0.N) : Vec Ideal S8x1 .f32 := iblk m c 6 t
abbrev w1Blk (c : Dev nD) (t : Fin cfg0.N) : Vec Ideal S128x2 .f32 := iblk m c 7 t
abbrev b1Blk (c : Dev nD) (t : Fin cfg0.N) : Vec Ideal S128x1 .f32 := iblk m c 8 t
abbrev w2Blk (c : Dev nD) (t : Fin cfg0.N) : Vec Ideal S5x128 .f32 := iblk m c 9 t
abbrev b2Blk (c : Dev nD) (t : Fin cfg0.N) : Vec Ideal S5x1 .f32 := iblk m c 10 t

/-- Column `t · 8192 + q` of the batch. -/
abbrev col (t : Fin cfg0.N) (q : Fin 8192) : Fin 524288 :=
  ⟨t.val * 8192 + q.val, by have := point_lt t; have := q.isLt; omega⟩

theorem xBlk_apply (c : Dev nD) (t : Fin cfg0.N) (k : Fin 1) (q : Fin 8192) :
    xBlk m c t (ix2 k q) = m ((c : Thread nD τ).loc main_arg0) (ix2 (col t q) k) := by
  rw [← Entry.input_apply m c k (col t q)]
  show V m c main_v0 (((cfg0.win 0).blk t).view.emb (ix2 k q)) = _
  obtain ⟨e0, e1, -⟩ := moving t
  refine congrArg _ (funext fun a => Fin.ext ?_)
  match a with
  | ⟨0, _⟩ => show win0_0.index t (0 : Fin 2) * 1 + 1 * k.val = k.val; omega
  | ⟨1, _⟩ => show win0_0.index t (1 : Fin 2) * 8192 + 1 * q.val = t.val * 8192 + q.val; omega

theorem hBlk_apply (c : Dev nD) (t : Fin cfg0.N) (k : Fin 2) (q : Fin 8192) :
    hBlk m c t (ix2 k q) = m ((c : Thread nD τ).loc main_arg1) (ix3 0 (col t q) k) := by
  rw [← Entry.hidden_apply m c k (col t q)]
  show V m c main_v2 (((cfg0.win 1).blk t).view.emb (ix2 k q)) = _
  obtain ⟨-, -, e0, e1, -⟩ := moving t
  refine congrArg _ (funext fun a => Fin.ext ?_)
  match a with
  | ⟨0, _⟩ => show win0_1.index t (0 : Fin 2) * 2 + 1 * k.val = k.val; omega
  | ⟨1, _⟩ => show win0_1.index t (1 : Fin 2) * 8192 + 1 * q.val = t.val * 8192 + q.val; omega

theorem cBlk_apply (c : Dev nD) (t : Fin cfg0.N) (k : Fin 2) (q : Fin 8192) :
    cBlk m c t (ix2 k q) = m ((c : Thread nD τ).loc main_arg2) (ix3 0 (col t q) k) := by
  rw [← Entry.cell_apply m c k (col t q)]
  show V m c main_v4 (((cfg0.win 2).blk t).view.emb (ix2 k q)) = _
  obtain ⟨-, -, -, -, e0, e1, -⟩ := moving t
  refine congrArg _ (funext fun a => Fin.ext ?_)
  match a with
  | ⟨0, _⟩ => show win0_2.index t (0 : Fin 2) * 2 + 1 * k.val = k.val; omega
  | ⟨1, _⟩ => show win0_2.index t (1 : Fin 2) * 8192 + 1 * q.val = t.val * 8192 + q.val; omega

theorem wihBlk_apply (c : Dev nD) (t : Fin cfg0.N) (r : Fin 8) (k : Fin 1) :
    wihBlk m c t (ix2 r k) = m ((c : Thread nD τ).loc main_arg3) (ix2 r k) := by
  rw [← V_main_arg3 m c]
  show V m c main_arg3 (((cfg0.win 3).blk t).view.emb (ix2 r k)) = _
  obtain ⟨e0, e1, -⟩ := resident t
  refine congrArg _ (funext fun a => Fin.ext ?_)
  match a with
  | ⟨0, _⟩ => show win0_3.index t (0 : Fin 2) * 8 + 1 * r.val = r.val; omega
  | ⟨1, _⟩ => show win0_3.index t (1 : Fin 2) * 1 + 1 * k.val = k.val; omega

theorem whhBlk_apply (c : Dev nD) (t : Fin cfg0.N) (r : Fin 8) (k : Fin 2) :
    whhBlk m c t (ix2 r k) = m ((c : Thread nD τ).loc main_arg4) (ix2 r k) := by
  rw [← V_main_arg4 m c]
  show V m c main_arg4 (((cfg0.win 4).blk t).view.emb (ix2 r k)) = _
  obtain ⟨-, -, e0, e1, -⟩ := resident t
  refine congrArg _ (funext fun a => Fin.ext ?_)
  match a with
  | ⟨0, _⟩ => show win0_4.index t (0 : Fin 2) * 8 + 1 * r.val = r.val; omega
  | ⟨1, _⟩ => show win0_4.index t (1 : Fin 2) * 2 + 1 * k.val = k.val; omega

theorem bihBlk_apply (c : Dev nD) (t : Fin cfg0.N) (r : Fin 8) :
    bihBlk m c t (ix2 r 0) = m ((c : Thread nD τ).loc main_arg5) (ix1 r) := by
  rw [← Entry.biasIh_apply m c r]
  show V m c main_v5 (((cfg0.win 5).blk t).view.emb (ix2 r 0)) = _
  obtain ⟨-, -, -, -, e0, e1, -⟩ := resident t
  refine congrArg _ (funext fun a => Fin.ext ?_)
  match a with
  | ⟨0, _⟩ => show win0_5.index t (0 : Fin 2) * 8 + 1 * r.val = r.val; omega
  | ⟨1, _⟩ => show win0_5.index t (1 : Fin 2) * 1 + 1 * 0 = 0; omega

theorem bhhBlk_apply (c : Dev nD) (t : Fin cfg0.N) (r : Fin 8) :
    bhhBlk m c t (ix2 r 0) = m ((c : Thread nD τ).loc main_arg6) (ix1 r) := by
  rw [← Entry.biasHh_apply m c r]
  show V m c main_v6 (((cfg0.win 6).blk t).view.emb (ix2 r 0)) = _
  obtain ⟨-, -, -, -, -, -, e0, e1, -⟩ := resident t
  refine congrArg _ (funext fun a => Fin.ext ?_)
  match a with
  | ⟨0, _⟩ => show win0_6.index t (0 : Fin 2) * 8 + 1 * r.val = r.val; omega
  | ⟨1, _⟩ => show win0_6.index t (1 : Fin 2) * 1 + 1 * 0 = 0; omega

theorem w1Blk_apply (c : Dev nD) (t : Fin cfg0.N) (a : Fin 128) (k : Fin 2) :
    w1Blk m c t (ix2 a k) = m ((c : Thread nD τ).loc main_arg7) (ix2 a k) := by
  rw [← V_main_arg7 m c]
  show V m c main_arg7 (((cfg0.win 7).blk t).view.emb (ix2 a k)) = _
  obtain ⟨-, -, -, -, -, -, -, -, e0, e1, -⟩ := resident t
  refine congrArg _ (funext fun b => Fin.ext ?_)
  match b with
  | ⟨0, _⟩ => show win0_7.index t (0 : Fin 2) * 128 + 1 * a.val = a.val; omega
  | ⟨1, _⟩ => show win0_7.index t (1 : Fin 2) * 2 + 1 * k.val = k.val; omega

theorem b1Blk_apply (c : Dev nD) (t : Fin cfg0.N) (a : Fin 128) :
    b1Blk m c t (ix2 a 0) = m ((c : Thread nD τ).loc main_arg8) (ix1 a) := by
  rw [← Entry.bias1_apply m c a]
  show V m c main_v7 (((cfg0.win 8).blk t).view.emb (ix2 a 0)) = _
  obtain ⟨-, -, -, -, -, -, -, -, -, -, e0, e1, -⟩ := resident t
  refine congrArg _ (funext fun b => Fin.ext ?_)
  match b with
  | ⟨0, _⟩ => show win0_8.index t (0 : Fin 2) * 128 + 1 * a.val = a.val; omega
  | ⟨1, _⟩ => show win0_8.index t (1 : Fin 2) * 1 + 1 * 0 = 0; omega

theorem w2Blk_apply (c : Dev nD) (t : Fin cfg0.N) (j : Fin 5) (k : Fin 128) :
    w2Blk m c t (ix2 j k) = m ((c : Thread nD τ).loc main_arg9) (ix2 j k) := by
  rw [← V_main_arg9 m c]
  show V m c main_arg9 (((cfg0.win 9).blk t).view.emb (ix2 j k)) = _
  obtain ⟨-, -, -, -, -, -, -, -, -, -, -, -, e0, e1, -⟩ := resident t
  refine congrArg _ (funext fun b => Fin.ext ?_)
  match b with
  | ⟨0, _⟩ => show win0_9.index t (0 : Fin 2) * 5 + 1 * j.val = j.val; omega
  | ⟨1, _⟩ => show win0_9.index t (1 : Fin 2) * 128 + 1 * k.val = k.val; omega

theorem b2Blk_apply (c : Dev nD) (t : Fin cfg0.N) (j : Fin 5) :
    b2Blk m c t (ix2 j 0) = m ((c : Thread nD τ).loc main_arg10) (ix1 j) := by
  rw [← Entry.bias2_apply m c j]
  show V m c main_v8 (((cfg0.win 10).blk t).view.emb (ix2 j 0)) = _
  obtain ⟨-, -, -, -, -, -, -, -, -, -, -, -, -, -, e0, e1⟩ := resident t
  refine congrArg _ (funext fun b => Fin.ext ?_)
  match b with
  | ⟨0, _⟩ => show win0_10.index t (0 : Fin 2) * 5 + 1 * j.val = j.val; omega
  | ⟨1, _⟩ => show win0_10.index t (1 : Fin 2) * 1 + 1 * 0 = 0; omega

/-! ## What tile `t` writes back -/

/-- Where lane `q` of class `j` of tile `t` lands in the output array: at (j, t · 8192 + q). -/
theorem out_emb (t : Fin cfg0.N) (j : Fin 5) (q : Fin 8192) :
    ((cfg0.win 11).blk t).view.emb (ix2 j q) = (ix2 j (col t q) : S5x524288.Idx) := by
  obtain ⟨-, -, -, -, -, -, e0, e1⟩ := moving t
  refine funext fun a => Fin.ext ?_
  match a with
  | ⟨0, _⟩ => show win0_11.index t (0 : Fin 2) * 5 + 1 * j.val = j.val; omega
  | ⟨1, _⟩ => show win0_11.index t (1 : Fin 2) * 8192 + 1 * q.val = t.val * 8192 + q.val; omega

/-- What tile `t` writes back is tile `t` of the transposed result. -/
theorem flushed_eq (c : Dev nD) (t : Fin cfg0.N) :
    (dats m 0 c).flushed 11 t = ((cfg0.win 11).blk t).view.read (Elt Ideal) (resultT m c) := by
  show (cfg0.win 11).cut (grid0.coords t) ((dats m 0 c).after 11 t) = _
  rw [after0_11]
  unfold out0_11
  rw [View.canon_unit_zero zeros]
  simp only [View.ld_unit_zero (S := S1x8192) zeros, View.ld_unit_zero (S := S2x8192) zeros,
    View.ld_unit_zero (S := S8x1) zeros, View.ld_unit_zero (S := S8x2) zeros, View.ld_unit_zero (S := S128x2) zeros,
    View.ld_unit_zero (S := S128x1) zeros, View.ld_unit_zero (S := S5x128) zeros, View.ld_unit_zero (S := S5x1) zeros]
  funext y
  obtain ⟨j, q, rfl⟩ : ∃ (j : Fin 5) (q : Fin 8192), y = ix2 j q := ⟨y 0, y 1, eq_ix2 y⟩
  show k0_pay1 (F := Ideal) (k0_pay2 (F := Ideal) (xBlk m c t) (hBlk m c t) (cBlk m c t) (wihBlk m c t) (whhBlk m c t)
      (bihBlk m c t) (bhhBlk m c t)) (w1Blk m c t) (b1Blk m c t) (w2Blk m c t) (b2Blk m c t) (ix2 j q)
    = resultT m c (((cfg0.win 11).blk t).view.emb (ix2 j q))
  rw [out_emb]
  refine (Cert.LstmHead.Kernel.payload_apply (xBlk m c t) (hBlk m c t) (cBlk m c t) (wihBlk m c t) (whhBlk m c t)
    (bihBlk m c t) (bhhBlk m c t) (w1Blk m c t) (b1Blk m c t) (w2Blk m c t) (b2Blk m c t) j q).trans ?_
  show _ = Cert.LstmHead.row (fun k => m ((c : Thread nD τ).loc main_arg0) (ix2 (col t q) k))
    (fun k => m ((c : Thread nD τ).loc main_arg1) (ix3 0 (col t q) k))
    (fun k => m ((c : Thread nD τ).loc main_arg2) (ix3 0 (col t q) k))
    (fun r k => m ((c : Thread nD τ).loc main_arg3) (ix2 r k)) (fun r k => m ((c : Thread nD τ).loc main_arg4) (ix2 r k))
    (fun r => m ((c : Thread nD τ).loc main_arg5) (ix1 r)) (fun r => m ((c : Thread nD τ).loc main_arg6) (ix1 r))
    (fun a k => m ((c : Thread nD τ).loc main_arg7) (ix2 a k)) (fun a => m ((c : Thread nD τ).loc main_arg8) (ix1 a))
    (fun j k => m ((c : Thread nD τ).loc main_arg9) (ix2 j k)) (fun j => m ((c : Thread nD τ).loc main_arg10) (ix1 j)) j
  simp only [xBlk_apply, hBlk_apply, cBlk_apply, wihBlk_apply, whhBlk_apply, bihBlk_apply, bhhBlk_apply, w1Blk_apply,
    b1Blk_apply, w2Blk_apply, b2Blk_apply]

/-! ## The tiles cover the array -/

theorem mem_blk (t : Fin cfg0.N) (i : S5x524288.Idx) :
    i ∈ ((cfg0.win 11).blk t).view.set ↔ ∀ a : Fin 2, win0_11.index t a * S5x8192.size a ≤ (i a).val ∧ (i a).val < win0_11.index t a * S5x8192.size a + S5x8192.size a := by
  show i ∈ ((View.whole main_v9).slice (win0_11.rect t)).set ↔ _
  rw [View.set_slice_whole, Rect.mem_set_unit]
  exact Iff.rfl

/-- Column `n` lies in tile `n / 8192`. -/
theorem cover (i : S5x524288.Idx) :
    ∃ t : Fin cfg0.N, (cfg0.win 11).flush t = true ∧ i ∈ ((cfg0.win 11).blk t).view.set := by
  have hi0 : (i 0).val < 5 := (i 0).isLt
  have hi1 : (i 1).val < 524288 := (i 1).isLt
  have ht : (i 1).val / 8192 < grid0.N := by rw [N_0]; omega
  refine ⟨⟨(i 1).val / 8192, ht⟩, flush0_11 _, ?_⟩
  rw [mem_blk]
  obtain ⟨-, -, -, -, -, -, e0, e1⟩ := moving ⟨(i 1).val / 8192, ht⟩
  intro a
  match a with
  | ⟨0, _⟩ => show win0_11.index _ (0 : Fin 2) * 5 ≤ (i 0).val ∧ (i 0).val < win0_11.index _ (0 : Fin 2) * 5 + 5; rw [e0]; omega
  | ⟨1, _⟩ =>
    show win0_11.index _ (1 : Fin 2) * 8192 ≤ (i 1).val ∧ (i 1).val < win0_11.index _ (1 : Fin 2) * 8192 + 8192
    rw [e1]; show (i 1).val / 8192 * 8192 ≤ (i 1).val ∧ (i 1).val < (i 1).val / 8192 * 8192 + 8192; omega

/-- The output array after the last tile is the transposed result. -/
theorem final (c : Dev nD) : (dats m 0 c).arrAt 11 cfg0.N = resultT m c :=
  (dats m 0 c).arrAt_eq_of_cover 11 (resultT m c) (fun t _ => flushed_eq m c t) cover

end Cert.LstmHead.Blocks

end
-- ==== Proof.Tail.lean ====
import proofs.«126714_j33225867002038_1_alg».proof.Proof.Gen.KernelIdeal.Frame
import proofs.«126714_j33225867002038_1_alg».proof.Proof.Spec
import proofs.«126714_j33225867002038_1_alg».proof.Proof.Blocks
import Idealize.ShloMosaic.Lib.ValueIdx
import Idealize.ShloMosaic.Lib.Pipeline.Value
import Idealize.ShloMosaic.Lib.StableHlo.Run

/-!
  After the kernel the [5, B] array is transposed back to [B, 5]: entry (n, j) of what the program returns is entry
  (j, n) of the kernel's output array, that is, the row function of batch row `n` at class `j`. The program's run is
  then re-stated with its result named and its eleven arguments unchanged.
-/

noncomputable section

namespace Cert.LstmHead.Tail

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The row function of the arguments as they were passed to the program on core `c`. -/
abbrev resultOf (c : Dev nD) : S524288x5.Idx → EReal :=
  Cert.LstmHead.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- What the program returns: the transpose of the kernel's output array, which is the result. -/
theorem returned_eq (c : Dev nD) :
    (Pipeline.afterTail₀ cfgs (dats m) 0 (V0 m) [hostOps1] c main_v10 : S524288x5.Idx → EReal) = resultOf m c := by
  unfold Pipeline.afterTail₀
  show StableHlo.after hostOps1 _ (Proc.devRef .tc main_v10) = _
  after_results
  have hA : Pipeline.withArrays (cfgs 0).spec c (V0 m c) (fun w => (dats m 0 c).arrAt w (cfgs 0).N) (Proc.devRef .tc main_v9)
      = Blocks.resultT m c :=
    (Pipeline.withArrays_arr spec0 launch0.win.arr_inj c _ _ 11).trans (Blocks.final m c)
  funext i
  obtain ⟨n, j, rfl⟩ : ∃ (n : Fin 524288) (j : Fin 5), i = ix2 n j := ⟨i 0, i 1, eq_ix2 i⟩
  refine (transpose_apply [1, 0] _ transposes_S5x524288_S524288x5_1_0 (ix2 n j) (ix2 j n) (fun b => match b with
    | ⟨0, _⟩ => rfl
    | ⟨1, _⟩ => rfl)).trans ?_
  exact (congrFun hA (ix2 j n)).trans rfl

/-- Every weakly fair execution of the program ends with the returned array at the result and the eleven arguments
    as they were passed: the kernel's output array holds the transposed result, the last transpose undoes the
    transposition, and no operation writes an argument. -/
theorem run : θ_run defs (onTc (τ := τ) (main (F := Ideal))) ⟨m, fun _ => 0, ρ⟩ (fun r => ∀ c : Dev nD,
      r.2.mem ((c : Thread nD τ).loc main_v10) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨((h c).2 main_v10 (Pipeline.mem_restRefs_of main_v10 (by decide) (by decide))).trans (returned_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c)⟩) (run_main m ρ)

end Cert.LstmHead.Tail

end
-- ==== Proof.RefStage.lean ====
import proofs.«126714_j33225867002038_1_alg».proof.Proof.Gen.ReferenceIdeal.Read
import proofs.«126714_j33225867002038_1_alg».proof.Proof.Spec
import Idealize.ShloMosaic.Lib.ValueIdx
import Idealize.ShloMosaic.PureOps.Ideal.Laws

/-!
  The reference's last stage, as a function of the eleven argument arrays, is the row function at every (row, class):
  its matrix products are the row function's sums with the two factors exchanged, its sigmoid spelt
  `1 / (1 + exp (-x))` is the logistic function, and its slices pick the four gates' rows.
-/

noncomputable section

namespace Cert.LstmHead.Reference

open Idealize.ShloMosaic Idealize.ShloMosaic.TcCoe Idealize.ShloMosaic.ValueIdx Cert.ReferenceIdeal Cert.ReferenceIdeal.Read

/-! ## The two literals -/

/-- The word `0x3F800000` encodes the number one. -/
theorem ofBits_one_f32 : Ideal.ofBits .f32 0x3F800000#32 = 1 := by
  simp [Ideal.ofBits, Ideal.ieee, -EReal.coe_mul]; norm_num

/-- The sigmoid spelt `1 / (1 + exp (-x))` with the literal one is the logistic function. -/
theorem spelt_sigmoid (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = Ideal.logistic x
  rw [ofBits_one_f32]
  rfl

/-! ## The layout operations at coordinates -/

section Layout

variable (a1 : (⟨S1x524288x2, .f32⟩ : BufTy).Contents (Elt Ideal))
    (a3 : (⟨S8x1, .f32⟩ : BufTy).Contents (Elt Ideal)) (a4 : (⟨S8x2, .f32⟩ : BufTy).Contents (Elt Ideal))
    (a5 : (⟨S8, .f32⟩ : BufTy).Contents (Elt Ideal)) (a7 : (⟨S128x2, .f32⟩ : BufTy).Contents (Elt Ideal))
    (a8 : (⟨S128, .f32⟩ : BufTy).Contents (Elt Ideal)) (a9 : (⟨S5x128, .f32⟩ : BufTy).Contents (Elt Ideal))
    (a10 : (⟨S5, .f32⟩ : BufTy).Contents (Elt Ideal))

/-- Dropping the leading axis of extent one: entry `(n, k)` of the reshaped state is entry `(0, n, k)`. -/
theorem v0_at (n : Fin 524288) (k : Fin 2) : val_main_v0 (F := Ideal) a1 (ix2 n k) = a1 (ix3 0 n k) := by
  refine (val_main_v0_apply a1 (ix2 n k)).trans (congrArg a1 ?_)
  funext a
  refine Fin.ext ?_
  have hn := n.isLt
  have hk := k.isLt
  match a with
  | ⟨0, _⟩ => rfl
  | ⟨1, _⟩ => show (n.val * 2 + k.val) / 2 % 524288 = n.val; omega
  | ⟨2, _⟩ => show (n.val * 2 + k.val) % 2 = k.val; omega

theorem v1_at (n : Fin 524288) (k : Fin 2) : val_main_v1 (F := Ideal) a1 (ix2 n k) = a1 (ix3 0 n k) := by
  refine (val_main_v1_apply a1 (ix2 n k)).trans (congrArg a1 ?_)
  funext a
  refine Fin.ext ?_
  have hn := n.isLt
  have hk := k.isLt
  match a with
  | ⟨0, _⟩ => rfl
  | ⟨1, _⟩ => show (n.val * 2 + k.val) / 2 % 524288 = n.val; omega
  | ⟨2, _⟩ => show (n.val * 2 + k.val) % 2 = k.val; omega

/-- The transposed weights: entry `(k, r)` of the transpose is entry `(r, k)`. -/
theorem v2_at (k : Fin 1) (r : Fin 8) : val_main_v2 (F := Ideal) a3 (ix2 k r) = a3 (ix2 r k) := by
  refine (val_main_v2_apply a3 (ix2 k r)).trans (congrArg a3 ?_)
  funext a
  match a with
  | ⟨0, _⟩ => rfl
  | ⟨1, _⟩ => rfl

theorem v4_at (k : Fin 2) (r : Fin 8) : val_main_v4 (F := Ideal) a4 (ix2 k r) = a4 (ix2 r k) := by
  refine (val_main_v4_apply a4 (ix2 k r)).trans (congrArg a4 ?_)
  funext a
  match a with
  | ⟨0, _⟩ => rfl
  | ⟨1, _⟩ => rfl

theorem v42_at (k : Fin 2) (r : Fin 128) : val_main_v42 (F := Ideal) a7 (ix2 k r) = a7 (ix2 r k) := by
  refine (val_main_v42_apply a7 (ix2 k r)).trans (congrArg a7 ?_)
  funext a
  match a with
  | ⟨0, _⟩ => rfl
  | ⟨1, _⟩ => rfl

theorem v48_at (k : Fin 128) (r : Fin 5) : val_main_v48 (F := Ideal) a9 (ix2 k r) = a9 (ix2 r k) := by
  refine (val_main_v48_apply a9 (ix2 k r)).trans (congrArg a9 ?_)
  funext a
  match a with
  | ⟨0, _⟩ => rfl
  | ⟨1, _⟩ => rfl

/-- A bias broadcast along the rows: entry `(n, r)` is the bias's entry `r`. -/
theorem v8_at (n : Fin 524288) (r : Fin 8) : val_main_v8 (F := Ideal) a5 (ix2 n r) = a5 (ix1 r) := by
  refine (val_main_v8_apply a5 (ix2 n r)).trans ((val_main_v7_apply a5 _).trans (congrArg a5 ?_))
  funext a
  match a with
  | ⟨0, _⟩ => rfl

theorem v11_at (n : Fin 524288) (r : Fin 8) : val_main_v11 (F := Ideal) a5 (ix2 n r) = a5 (ix1 r) := by
  refine (val_main_v11_apply a5 (ix2 n r)).trans ((val_main_v10_apply a5 _).trans (congrArg a5 ?_))
  funext a
  match a with
  | ⟨0, _⟩ => rfl

theorem v45_at (n : Fin 524288) (r : Fin 128) : val_main_v45 (F := Ideal) a8 (ix2 n r) = a8 (ix1 r) := by
  refine (val_main_v45_apply a8 (ix2 n r)).trans ((val_main_v44_apply a8 _).trans (congrArg a8 ?_))
  funext a
  match a with
  | ⟨0, _⟩ => rfl

theorem v51_at (n : Fin 524288) (r : Fin 5) : val_main_v51 (F := Ideal) a10 (ix2 n r) = a10 (ix1 r) := by
  refine (val_main_v51_apply a10 (ix2 n r)).trans ((val_main_v50_apply a10 _).trans (congrArg a10 ?_))
  funext a
  match a with
  | ⟨0, _⟩ => rfl

end Layout

/-! ## The gate pre-activations -/

section Gates

variable (a0 : (⟨S524288x1, .f32⟩ : BufTy).Contents (Elt Ideal)) (a1 a2 : (⟨S1x524288x2, .f32⟩ : BufTy).Contents (Elt Ideal))
    (a3 : (⟨S8x1, .f32⟩ : BufTy).Contents (Elt Ideal)) (a4 : (⟨S8x2, .f32⟩ : BufTy).Contents (Elt Ideal))
    (a5 a6 : (⟨S8, .f32⟩ : BufTy).Contents (Elt Ideal))

/-- The input's product with the transposed input weights, factors exchanged: `∑ k, W_ih(r, k) · x(n, k)`. -/
theorem v3_at (n : Fin 524288) (r : Fin 8) :
    val_main_v3 (F := Ideal) a0 a3 (ix2 n r) = ∑ k : Fin 1, a3 (ix2 r k) * a0 (ix2 n k) := by
  refine (val_main_v3_apply a0 a3 (ix2 n r)).trans (Finset.sum_congr rfl fun k _ => ?_)
  have e1 : lidx_main_v3 (ix2 n r) k = ix2 n k := funext fun a => match a with
    | ⟨0, _⟩ => rfl
    | ⟨1, _⟩ => rfl
  have e2 : ridx_main_v3 (ix2 n r) k = ix2 k r := funext fun a => match a with
    | ⟨0, _⟩ => rfl
    | ⟨1, _⟩ => rfl
  rw [e1, e2, v2_at, mul_comm]

/-- The previous hidden state's product with the transposed recurrent weights: `∑ k, W_hh(r, k) · h(0, n, k)`. -/
theorem v5_at (n : Fin 524288) (r : Fin 8) :
    val_main_v5 (F := Ideal) a1 a4 (ix2 n r) = ∑ k : Fin 2, a4 (ix2 r k) * a1 (ix3 0 n k) := by
  refine (val_main_v5_apply a1 a4 (ix2 n r)).trans (Finset.sum_congr rfl fun k _ => ?_)
  have e1 : lidx_main_v5 (ix2 n r) k = ix2 n k := funext fun a => match a with
    | ⟨0, _⟩ => rfl
    | ⟨1, _⟩ => rfl
  have e2 : ridx_main_v5 (ix2 n r) k = ix2 k r := funext fun a => match a with
    | ⟨0, _⟩ => rfl
    | ⟨1, _⟩ => rfl
  rw [e1, e2, v0_at, v4_at, mul_comm]

/-- Entry `(n, r)` of the eight gate pre-activations is gate `r` of batch row `n`. -/
theorem v12_at (n : Fin 524288) (r : Fin 8) :
    val_main_v12 (F := Ideal) a0 a1 a3 a4 a5 a6 (ix2 n r)
      = gate (fun k => a0 (ix2 n k)) (fun k => a1 (ix3 0 n k)) (fun r k => a3 (ix2 r k)) (fun r k => a4 (ix2 r k))
          (fun r => a5 (ix1 r)) (fun r => a6 (ix1 r)) r := by
  show val_main_v3 (F := Ideal) a0 a3 (ix2 n r) + val_main_v5 (F := Ideal) a1 a4 (ix2 n r)
      + val_main_v8 (F := Ideal) a5 (ix2 n r) + val_main_v11 (F := Ideal) a6 (ix2 n r) = _
  rw [v3_at, v5_at, v8_at, v11_at]
  rfl

/-- The first slice holds rows 0–1 … -/
theorem v13_at (n : Fin 524288) (u : Fin 2) :
    val_main_v13 (F := Ideal) a0 a1 a3 a4 a5 a6 (ix2 n u)
      = val_main_v12 (F := Ideal) a0 a1 a3 a4 a5 a6 (ix2 n (gateRow 0 (by omega) u)) := by
  refine (val_main_v13_apply a0 a1 a3 a4 a5 a6 (ix2 n u)).trans (congrArg _ ?_)
  funext a
  refine Fin.ext ?_
  match a with
  | ⟨0, _⟩ => rfl
  | ⟨1, _⟩ => show u.val = 0 + u.val; omega

/-- … the second rows 2–3 … -/
theorem v14_at (n : Fin 524288) (u : Fin 2) :
    val_main_v14 (F := Ideal) a0 a1 a3 a4 a5 a6 (ix2 n u)
      = val_main_v12 (F := Ideal) a0 a1 a3 a4 a5 a6 (ix2 n (gateRow 2 (by omega) u)) := by
  refine (val_main_v14_apply a0 a1 a3 a4 a5 a6 (ix2 n u)).trans (congrArg _ ?_)
  funext a
  refine Fin.ext ?_
  match a with
  | ⟨0, _⟩ => rfl
  | ⟨1, _⟩ => rfl

/-- … the third rows 4–5 … -/
theorem v15_at (n : Fin 524288) (u : Fin 2) :
    val_main_v15 (F := Ideal) a0 a1 a3 a4 a5 a6 (ix2 n u)
      = val_main_v12 (F := Ideal) a0 a1 a3 a4 a5 a6 (ix2 n (gateRow 4 (by omega) u)) := by
  refine (val_main_v15_apply a0 a1 a3 a4 a5 a6 (ix2 n u)).trans (congrArg _ ?_)
  funext a
  refine Fin.ext ?_
  match a with
  | ⟨0, _⟩ => rfl
  | ⟨1, _⟩ => rfl

/-- … and the fourth rows 6–7. -/
theorem v16_at (n : Fin 524288) (u : Fin 2) :
    val_main_v16 (F := Ideal) a0 a1 a3 a4 a5 a6 (ix2 n u)
      = val_main_v12 (F := Ideal) a0 a1 a3 a4 a5 a6 (ix2 n (gateRow 6 (by omega) u)) := by
  refine (val_main_v16_apply a0 a1 a3 a4 a5 a6 (ix2 n u)).trans (congrArg _ ?_)
  funext a
  refine Fin.ext ?_
  match a with
  | ⟨0, _⟩ => rfl
  | ⟨1, _⟩ => rfl

/-- A broadcast scalar constant one reads the literal's word everywhere. -/
theorem v19_at (i : S524288x2.Idx) : val_main_v19 (F := Ideal) i = FloatOps.ofBits (F := Ideal) .f32 0x3F800000#32 :=
  (val_main_v19_apply i).trans (val_main_cst_apply _)
theorem v21_at (i : S524288x2.Idx) : val_main_v21 (F := Ideal) i = FloatOps.ofBits (F := Ideal) .f32 0x3F800000#32 :=
  (val_main_v21_apply i).trans (val_main_cst_0_apply _)
theorem v25_at (i : S524288x2.Idx) : val_main_v25 (F := Ideal) i = FloatOps.ofBits (F := Ideal) .f32 0x3F800000#32 :=
  (val_main_v25_apply i).trans (val_main_cst_1_apply _)
theorem v27_at (i : S524288x2.Idx) : val_main_v27 (F := Ideal) i = FloatOps.ofBits (F := Ideal) .f32 0x3F800000#32 :=
  (val_main_v27_apply i).trans (val_main_cst_2_apply _)
theorem v32_at (i : S524288x2.Idx) : val_main_v32 (F := Ideal) i = FloatOps.ofBits (F := Ideal) .f32 0x3F800000#32 :=
  (val_main_v32_apply i).trans (val_main_cst_3_apply _)
theorem v34_at (i : S524288x2.Idx) : val_main_v34 (F := Ideal) i = FloatOps.ofBits (F := Ideal) .f32 0x3F800000#32 :=
  (val_main_v34_apply i).trans (val_main_cst_4_apply _)

/-- The input gate: the logistic function of gate rows 0–1. -/
theorem v22_at (n : Fin 524288) (u : Fin 2) :
    val_main_v22 (F := Ideal) a0 a1 a3 a4 a5 a6 (ix2 n u)
      = Ideal.logistic (gate (fun k => a0 (ix2 n k)) (fun k => a1 (ix3 0 n k)) (fun r k => a3 (ix2 r k))
          (fun r k => a4 (ix2 r k)) (fun r => a5 (ix1 r)) (fun r => a6 (ix1 r)) (gateRow 0 (by omega) u)) := by
  show FloatOps.hostDivf (F := Ideal) (φ := .f32) (val_main_v21 (F := Ideal) (ix2 n u))
      (FloatOps.addf (val_main_v19 (F := Ideal) (ix2 n u))
        (FloatOps.hostUnary .exp (FloatOps.hostNegf (val_main_v13 (F := Ideal) a0 a1 a3 a4 a5 a6 (ix2 n u))))) = _
  rw [v21_at, v19_at, v13_at, v12_at, spelt_sigmoid]

/-- The forget gate: the logistic function of gate rows 2–3. -/
theorem v28_at (n : Fin 524288) (u : Fin 2) :
    val_main_v28 (F := Ideal) a0 a1 a3 a4 a5 a6 (ix2 n u)
      = Ideal.logistic (gate (fun k => a0 (ix2 n k)) (fun k => a1 (ix3 0 n k)) (fun r k => a3 (ix2 r k))
          (fun r k => a4 (ix2 r k)) (fun r => a5 (ix1 r)) (fun r => a6 (ix1 r)) (gateRow 2 (by omega) u)) := by
  show FloatOps.hostDivf (F := Ideal) (φ := .f32) (val_main_v27 (F := Ideal) (ix2 n u))
      (FloatOps.addf (val_main_v25 (F := Ideal) (ix2 n u))
        (FloatOps.hostUnary .exp (FloatOps.hostNegf (val_main_v14 (F := Ideal) a0 a1 a3 a4 a5 a6 (ix2 n u))))) = _
  rw [v27_at, v25_at, v14_at, v12_at, spelt_sigmoid]

/-- The candidate: the hyperbolic tangent of gate rows 4–5. -/
theorem v29_at (n : Fin 524288) (u : Fin 2) :
    val_main_v29 (F := Ideal) a0 a1 a3 a4 a5 a6 (ix2 n u)
      = Ideal.tanh (gate (fun k => a0 (ix2 n k)) (fun k => a1 (ix3 0 n k)) (fun r k => a3 (ix2 r k))
          (fun r k => a4 (ix2 r k)) (fun r => a5 (ix1 r)) (fun r => a6 (ix1 r)) (gateRow 4 (by omega) u)) := by
  show Ideal.tanh (val_main_v15 (F := Ideal) a0 a1 a3 a4 a5 a6 (ix2 n u)) = _
  rw [v15_at, v12_at]

/-- The output gate: the logistic function of gate rows 6–7. -/
theorem v35_at (n : Fin 524288) (u : Fin 2) :
    val_main_v35 (F := Ideal) a0 a1 a3 a4 a5 a6 (ix2 n u)
      = Ideal.logistic (gate (fun k => a0 (ix2 n k)) (fun k => a1 (ix3 0 n k)) (fun r k => a3 (ix2 r k))
          (fun r k => a4 (ix2 r k)) (fun r => a5 (ix1 r)) (fun r => a6 (ix1 r)) (gateRow 6 (by omega) u)) := by
  show FloatOps.hostDivf (F := Ideal) (φ := .f32) (val_main_v34 (F := Ideal) (ix2 n u))
      (FloatOps.addf (val_main_v32 (F := Ideal) (ix2 n u))
        (FloatOps.hostUnary .exp (FloatOps.hostNegf (val_main_v16 (F := Ideal) a0 a1 a3 a4 a5 a6 (ix2 n u))))) = _
  rw [v34_at, v32_at, v16_at, v12_at, spelt_sigmoid]

/-- The new cell state. -/
theorem v38_at (n : Fin 524288) (u : Fin 2) :
    val_main_v38 (F := Ideal) a0 a1 a2 a3 a4 a5 a6 (ix2 n u)
      = cell (fun k => a0 (ix2 n k)) (fun k => a1 (ix3 0 n k)) (fun k => a2 (ix3 0 n k)) (fun r k => a3 (ix2 r k))
          (fun r k => a4 (ix2 r k)) (fun r => a5 (ix1 r)) (fun r => a6 (ix1 r)) u := by
  show val_main_v28 (F := Ideal) a0 a1 a3 a4 a5 a6 (ix2 n u) * val_main_v1 (F := Ideal) a2 (ix2 n u)
      + val_main_v22 (F := Ideal) a0 a1 a3 a4 a5 a6 (ix2 n u) * val_main_v29 (F := Ideal) a0 a1 a3 a4 a5 a6 (ix2 n u) = _
  rw [v28_at, v1_at, v22_at, v29_at]
  rfl

/-- The literal zero the clamp compares with. -/
theorem call0_v0_at (i : S524288x2.Idx) : val_main_call0_v0 (F := Ideal) i = 0 :=
  (val_main_call0_v0_apply i).trans ((val_main_call0_cst_apply _).trans Ideal.ofBits_zero_f32)

/-- The new hidden state, clamped below at zero. -/
theorem v41_at (n : Fin 524288) (u : Fin 2) :
    val_main_v41 (F := Ideal) a0 a1 a2 a3 a4 a5 a6 (ix2 n u)
      = hidden (fun k => a0 (ix2 n k)) (fun k => a1 (ix3 0 n k)) (fun k => a2 (ix3 0 n k)) (fun r k => a3 (ix2 r k))
          (fun r k => a4 (ix2 r k)) (fun r => a5 (ix1 r)) (fun r => a6 (ix1 r)) u := by
  show max (val_main_v35 (F := Ideal) a0 a1 a3 a4 a5 a6 (ix2 n u)
        * Ideal.tanh (val_main_v38 (F := Ideal) a0 a1 a2 a3 a4 a5 a6 (ix2 n u)))
      (val_main_call0_v0 (F := Ideal) (ix2 n u)) = _
  rw [v35_at, v38_at, call0_v0_at]
  rfl

end Gates

/-! ## The head and the result -/

section Head

variable (a0 : (⟨S524288x1, .f32⟩ : BufTy).Contents (Elt Ideal)) (a1 a2 : (⟨S1x524288x2, .f32⟩ : BufTy).Contents (Elt Ideal))
    (a3 : (⟨S8x1, .f32⟩ : BufTy).Contents (Elt Ideal)) (a4 : (⟨S8x2, .f32⟩ : BufTy).Contents (Elt Ideal))
    (a5 a6 : (⟨S8, .f32⟩ : BufTy).Contents (Elt Ideal)) (a7 : (⟨S128x2, .f32⟩ : BufTy).Contents (Elt Ideal))
    (a8 : (⟨S128, .f32⟩ : BufTy).Contents (Elt Ideal)) (a9 : (⟨S5x128, .f32⟩ : BufTy).Contents (Elt Ideal))
    (a10 : (⟨S5, .f32⟩ : BufTy).Contents (Elt Ideal))

/-- The hidden state's product with the transposed first-layer weights, factors exchanged. -/
theorem v43_at (n : Fin 524288) (a : Fin 128) :
    val_main_v43 (F := Ideal) a0 a1 a2 a3 a4 a5 a6 a7 (ix2 n a)
      = ∑ k : Fin 2, a7 (ix2 a k) * hidden (fun k => a0 (ix2 n k)) (fun k => a1 (ix3 0 n k)) (fun k => a2 (ix3 0 n k))
          (fun r k => a3 (ix2 r k)) (fun r k => a4 (ix2 r k)) (fun r => a5 (ix1 r)) (fun r => a6 (ix1 r)) k := by
  refine (val_main_v43_apply a0 a1 a2 a3 a4 a5 a6 a7 (ix2 n a)).trans (Finset.sum_congr rfl fun k _ => ?_)
  have e1 : lidx_main_v43 (ix2 n a) k = ix2 n k := funext fun b => match b with
    | ⟨0, _⟩ => rfl
    | ⟨1, _⟩ => rfl
  have e2 : ridx_main_v43 (ix2 n a) k = ix2 k a := funext fun b => match b with
    | ⟨0, _⟩ => rfl
    | ⟨1, _⟩ => rfl
  rw [e1, e2, v41_at, v42_at, mul_comm]

/-- The literal zero of the head's clamp. -/
theorem call1_v0_at (i : S524288x128.Idx) : val_main_call1_v0 (F := Ideal) i = 0 :=
  (val_main_call1_v0_apply i).trans ((val_main_call1_cst_apply _).trans Ideal.ofBits_zero_f32)

/-- The head's first layer. -/
theorem v47_at (n : Fin 524288) (a : Fin 128) :
    val_main_v47 (F := Ideal) a0 a1 a2 a3 a4 a5 a6 a7 a8 (ix2 n a)
      = layer1 (fun k => a0 (ix2 n k)) (fun k => a1 (ix3 0 n k)) (fun k => a2 (ix3 0 n k)) (fun r k => a3 (ix2 r k))
          (fun r k => a4 (ix2 r k)) (fun r => a5 (ix1 r)) (fun r => a6 (ix1 r)) (fun a k => a7 (ix2 a k))
          (fun a => a8 (ix1 a)) a := by
  show max (val_main_v43 (F := Ideal) a0 a1 a2 a3 a4 a5 a6 a7 (ix2 n a) + val_main_v45 (F := Ideal) a8 (ix2 n a))
      (val_main_call1_v0 (F := Ideal) (ix2 n a)) = _
  rw [v43_at, v45_at, call1_v0_at]
  rfl

/-- The first layer's product with the transposed second-layer weights, factors exchanged. -/
theorem v49_at (n : Fin 524288) (j : Fin 5) :
    val_main_v49 (F := Ideal) a0 a1 a2 a3 a4 a5 a6 a7 a8 a9 (ix2 n j)
      = ∑ k : Fin 128, a9 (ix2 j k) * layer1 (fun k => a0 (ix2 n k)) (fun k => a1 (ix3 0 n k)) (fun k => a2 (ix3 0 n k))
          (fun r k => a3 (ix2 r k)) (fun r k => a4 (ix2 r k)) (fun r => a5 (ix1 r)) (fun r => a6 (ix1 r))
          (fun a k => a7 (ix2 a k)) (fun a => a8 (ix1 a)) k := by
  refine (val_main_v49_apply a0 a1 a2 a3 a4 a5 a6 a7 a8 a9 (ix2 n j)).trans (Finset.sum_congr rfl fun k _ => ?_)
  have e1 : lidx_main_v49 (ix2 n j) k = ix2 n k := funext fun b => match b with
    | ⟨0, _⟩ => rfl
    | ⟨1, _⟩ => rfl
  have e2 : ridx_main_v49 (ix2 n j) k = ix2 k j := funext fun b => match b with
    | ⟨0, _⟩ => rfl
    | ⟨1, _⟩ => rfl
  rw [e1, e2, v47_at, v48_at, mul_comm]

/-- Entry `(n, j)` of the last stage is class `j` of batch row `n`. -/
theorem v52_at (n : Fin 524288) (j : Fin 5) :
    val_main_v52 (F := Ideal) a0 a1 a2 a3 a4 a5 a6 a7 a8 a9 a10 (ix2 n j)
      = row (fun k => a0 (ix2 n k)) (fun k => a1 (ix3 0 n k)) (fun k => a2 (ix3 0 n k)) (fun r k => a3 (ix2 r k))
          (fun r k => a4 (ix2 r k)) (fun r => a5 (ix1 r)) (fun r => a6 (ix1 r)) (fun a k => a7 (ix2 a k))
          (fun a => a8 (ix1 a)) (fun j k => a9 (ix2 j k)) (fun j => a10 (ix1 j)) j := by
  show val_main_v49 (F := Ideal) a0 a1 a2 a3 a4 a5 a6 a7 a8 a9 (ix2 n j) + val_main_v51 (F := Ideal) a10 (ix2 n j) = _
  rw [v49_at, v51_at]
  rfl

end Head

theorem stage_eq_result (a0 : (⟨S524288x1, .f32⟩ : BufTy).Contents (Elt Ideal)) (a1 a2 : (⟨S1x524288x2, .f32⟩ : BufTy).Contents (Elt Ideal))
    (a3 : (⟨S8x1, .f32⟩ : BufTy).Contents (Elt Ideal)) (a4 : (⟨S8x2, .f32⟩ : BufTy).Contents (Elt Ideal))
    (a5 a6 : (⟨S8, .f32⟩ : BufTy).Contents (Elt Ideal)) (a7 : (⟨S128x2, .f32⟩ : BufTy).Contents (Elt Ideal))
    (a8 : (⟨S128, .f32⟩ : BufTy).Contents (Elt Ideal)) (a9 : (⟨S5x128, .f32⟩ : BufTy).Contents (Elt Ideal))
    (a10 : (⟨S5, .f32⟩ : BufTy).Contents (Elt Ideal)) :
    val_main_v52 (F := Ideal) a0 a1 a2 a3 a4 a5 a6 a7 a8 a9 a10
      = Cert.LstmHead.result a0 a1 a2 a3 a4 a5 a6 a7 a8 a9 a10 := by
  funext i
  obtain ⟨n, j, rfl⟩ : ∃ (n : Fin 524288) (j : Fin 5), i = ix2 n j := ⟨i 0, i 1, eq_ix2 i⟩
  exact v52_at a0 a1 a2 a3 a4 a5 a6 a7 a8 a9 a10 n j

end Cert.LstmHead.Reference

end
-- ==== Proof.lean ====
/-
  A single-step LSTM cell with a two-layer head, computed by a tiled kernel with the batch on the lane axis,
  against the plain row-major reference, over the extended reals.

  Both programs compute, for batch row n and class j, the same function of row n's readers (Proof/Spec.lean):
  the gate pre-activations W_ih · x + W_hh · h + b_ih + b_hh, the cell state σ(f) · c + σ(i) · tanh(g), the hidden
  state σ(o) · tanh(cell) clamped at zero, and the head W2 · max(W1 · hidden + b1, 0) + b2. They differ only in
  layout and spelling: the kernel transposes its operands, walks the batch in 64 tiles of 8192 lanes and transposes
  its [5, B] output back; it multiplies weight by data where the reference multiplies data by the transposed weight
  (the same products, the factors exchanged); it uses the logistic function where the reference spells
  1 / (1 + exp (-x)). Its narrowing to a shorter float format is the identity on the extended reals. No law beyond
  commutativity of the product is used, so the finiteness of the inputs is never opened.

  Proof/Payload.lean reads the kernel body's stored tile at a lane; Proof/Entry.lean reads the kernel's operand arrays
  in terms of the arguments; Proof/Blocks.lean joins the 64 tiles into the whole output array; Proof/Tail.lean undoes
  the last transpose and re-states the kernel program's run; Proof/RefStage.lean reads the reference's stages.
  The kernel programs' frames are their generated frame certificates, the reference's its generated run with the
  result dropped; the idealization rewrote nothing, so it preserves trivially.
-/
import proofs.«126714_j33225867002038_1_alg».proof.Defs
import proofs.«126714_j33225867002038_1_alg».proof.Proof.Gen.Kernel
import proofs.«126714_j33225867002038_1_alg».proof.Proof.Gen.Kernel.Skeleton
import proofs.«126714_j33225867002038_1_alg».proof.Proof.Gen.Kernel.Launch
import proofs.«126714_j33225867002038_1_alg».proof.Proof.Gen.Kernel.Points
import proofs.«126714_j33225867002038_1_alg».proof.Proof.Gen.Kernel.Frame
import proofs.«126714_j33225867002038_1_alg».proof.Proof.Gen.KernelIdeal
import proofs.«126714_j33225867002038_1_alg».proof.Proof.Gen.KernelIdeal.Skeleton
import proofs.«126714_j33225867002038_1_alg».proof.Proof.Gen.KernelIdeal.Launch
import proofs.«126714_j33225867002038_1_alg».proof.Proof.Gen.KernelIdeal.Points
import proofs.«126714_j33225867002038_1_alg».proof.Proof.Gen.KernelIdeal.Frame
import proofs.«126714_j33225867002038_1_alg».proof.Proof.Gen.ReferenceIdeal
import proofs.«126714_j33225867002038_1_alg».proof.Proof.Gen.Pre_finite_inputs
import proofs.«126714_j33225867002038_1_alg».proof.Proof.Gen.ReferenceIdeal.Run
import proofs.«126714_j33225867002038_1_alg».proof.Proof.Gen.ReferenceIdeal.Read
import proofs.«126714_j33225867002038_1_alg».proof.Proof.Tail
import proofs.«126714_j33225867002038_1_alg».proof.Proof.RefStage
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel program returns the row function of its arguments (Proof/Tail.lean) and the
    reference's last stage is the row function of its own (Proof/RefStage.lean): the same array. -/
theorem algebraic : Cert.algebraic_KernelIdeal_ReferenceIdeal := by
  intro m ρ m' ρ' _ hagree
  refine ⟨fun c => Cert.LstmHead.Tail.resultOf m c, Cert.LstmHead.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v52_eq, Cert.LstmHead.Reference.stage_eq_result, e0, e1, e2, e3, e4, e5, e6, e7,
    e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
